-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048x8 : Shape := ⟨3, ![2048, 2048, 8]⟩
abbrev S2048 : Shape := ⟨1, ![2048]⟩
abbrev S128x128 : Shape := ⟨2, ![128, 128]⟩
abbrev S128 : Shape := ⟨1, ![128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048x8 : S_.BroadcastsInDim S2048x2048x8 (![] : Fin 0 → Fin S2048x2048x8.rank)
  reducesTo_S2048x2048x8_S_d0_1_2 : S2048x2048x8.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S2048_S_d0 : S2048.ReducesTo [0] S_

variable [Facts]

def fn_part3 {F : FTy → Type} [FloatOps F] (main_v48 : IVec S_ 1) (main_v50 : IVec S_ 1) : IVec S_ 1 :=
  let main_v51 : IVec S_ 1 := andi main_v48 main_v50
  main_v51

def fn_part2 {F : FTy → Type} [FloatOps F] (main_arg2 : IVec S2048 1) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S2048 1 := noti main_arg2
  let main_c_18 : IVec S_ 1 := constantI S_ 1 0#1
  let main_v50 : IVec S_ 1 := (fun x v => Host.reduce IntOp.ori x v reducesTo_S2048_S_d0 h_S_) main_v49 main_c_18
  fn_part3 (F := F) main_v48 main_v50

def fn_part1 {F : FTy → Type} [FloatOps F] (main_arg2 : IVec S2048 1) (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S2048x128 .f32) (main_arg1 : FVec F S2048x2048x8 .f32) (main_arg2 : IVec S2048 1) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048x8 .f32 := Host.absf main_arg1
  let main_cst_0 : FVec F S_ .f32 := constant S_ .f32 0x7F800000#32
  let main_v5 : FVec F S2048x2048x8 .f32 := broadcastInDim S2048x2048x8 ![] bcast_S_S2048x2048x8 main_cst_0
  let main_v6 : IVec S2048x2048x8 1 := cmpf .olt main_v4 main_v5
  let main_c_1 : IVec S_ 1 := constantI S_ 1 1#1
  let main_v7 : IVec S_ 1 := (fun x v => Host.reduce IntOp.andi x v reducesTo_S2048x2048x8_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S2048x128 : Shape := ⟨2, ![2048, 128]⟩
abbrev S2048x2048x8 : Shape := ⟨3, ![2048, 2048, 8]⟩
abbrev S2048 : Shape := ⟨1, ![2048]⟩
abbrev S128x128 : Shape := ⟨2, ![128, 128]⟩
abbrev S128 : Shape := ⟨1, ![128]⟩
abbrev S1x128 : Shape := ⟨2, ![1, 128]⟩
abbrev S2048x8x16 : Shape := ⟨3, ![2048, 8, 16]⟩
abbrev S8x2048x16 : Shape := ⟨3, ![8, 2048, 16]⟩
abbrev S8x2048x2048 : Shape := ⟨3, ![8, 2048, 2048]⟩
abbrev S_ : Shape := ⟨0, ![]⟩
abbrev S1x1x2048 : Shape := ⟨3, ![1, 1, 2048]⟩
abbrev S8x256x16 : Shape := ⟨3, ![8, 256, 16]⟩
abbrev S8x256x256 : Shape := ⟨3, ![8, 256, 256]⟩
abbrev S1x1x256 : Shape := ⟨3, ![1, 1, 256]⟩
abbrev S8x256x1 : Shape := ⟨3, ![8, 256, 1]⟩
abbrev S8x256 : Shape := ⟨2, ![8, 256]⟩

abbrev nBuf : Space → Nat
  | .hbm => 51
  | .vmem => 15
  | .smem => 0
  | _ => 0

abbrev bufTy : (tb : Table) → Fin (tcTables nBuf tb) → BufTy
  | .hbm, ⟨0, _⟩ => ⟨S2048x128, .f32⟩
  | .hbm, ⟨1, _⟩ => ⟨S2048x2048x8, .f32⟩
  | .hbm, ⟨2, _⟩ => ⟨S2048, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S2048x128, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S2048x8x16, .f32⟩
  | .hbm, ⟨17, _⟩ => ⟨S128x128, .f32⟩
  | .hbm, ⟨18, _⟩ => ⟨S2048x128, .f32⟩
  | .hbm, ⟨19, _⟩ => ⟨S1x128, .f32⟩
  | .hbm, ⟨20, _⟩ => ⟨S2048x128, .f32⟩
  | .hbm, ⟨21, _⟩ => ⟨S2048x128, .f32⟩
  | .hbm, ⟨22, _⟩ => ⟨S2048x8x16, .f32⟩
  | .hbm, ⟨23, _⟩ => ⟨S128x128, .f32⟩
  | .hbm, ⟨24, _⟩ => ⟨S2048x128, .f32⟩
  | .hbm, ⟨25, _⟩ => ⟨S1x128, .f32⟩
  | .hbm, ⟨26, _⟩ => ⟨S2048x128, .f32⟩
  | .hbm, ⟨27, _⟩ => ⟨S2048x128, .f32⟩
  | .hbm, ⟨28, _⟩ => ⟨S2048x8x16, .f32⟩
  | .hbm, ⟨29, _⟩ => ⟨S8x2048x16, .f32⟩
  | .hbm, ⟨30, _⟩ => ⟨S8x2048x16, .bf16⟩
  | .hbm, ⟨31, _⟩ => ⟨S8x2048x16, .f32⟩
  | .hbm, ⟨32, _⟩ => ⟨S8x2048x16, .bf16⟩
  | .hbm, ⟨33, _⟩ => ⟨S8x2048x16, .f32⟩
  | .hbm, ⟨34, _⟩ => ⟨S8x2048x16, .bf16⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S1x1x2048, .f32⟩
  | .hbm, ⟨43, _⟩ => ⟨S8x2048x16, .f32⟩
  | .hbm, ⟨44, _⟩ => ⟨S2048x8x16, .f32⟩
  | .hbm, ⟨45, _⟩ => ⟨S2048x128, .f32⟩
  | .hbm, ⟨46, _⟩ => ⟨S128x128, .f32⟩
  | .hbm, ⟨47, _⟩ => ⟨S2048x128, .f32⟩
  | .hbm, ⟨48, _⟩ => ⟨S1x128, .f32⟩
  | .hbm, ⟨49, _⟩ => ⟨S2048x128, .f32⟩
  | .hbm, ⟨50, _⟩ => ⟨S2048x128, .f32⟩
  | .local _ .vmem, ⟨0, _⟩ => ⟨S8x256x16, .bf16⟩
  | .local _ .vmem, ⟨1, _⟩ => ⟨S8x256x16, .bf16⟩
  | .local _ .vmem, ⟨2, _⟩ => ⟨S8x256x16, .bf16⟩
  | .local _ .vmem, ⟨3, _⟩ => ⟨S8x256x16, .bf16⟩
  | .local _ .vmem, ⟨4, _⟩ => ⟨S8x256x16, .bf16⟩
  | .local _ .vmem, ⟨5, _⟩ => ⟨S8x256x16, .bf16⟩
  | .local _ .vmem, ⟨6, _⟩ => ⟨S8x256x256, .f32⟩
  | .local _ .vmem, ⟨7, _⟩ => ⟨S8x256x256, .f32⟩
  | .local _ .vmem, ⟨8, _⟩ => ⟨S1x1x256, .f32⟩
  | .local _ .vmem, ⟨9, _⟩ => ⟨S1x1x256, .f32⟩
  | .local _ .vmem, ⟨10, _⟩ => ⟨S8x256x16, .f32⟩
  | .local _ .vmem, ⟨11, _⟩ => ⟨S8x256x16, .f32⟩
  | .local _ .vmem, ⟨12, _⟩ => ⟨S8x256x1, .f32⟩
  | .local _ .vmem, ⟨13, _⟩ => ⟨S8x256x1, .f32⟩
  | .local _ .vmem, ⟨14, _⟩ => ⟨S8x256x16, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_37 : BitVec 32 := 0#32
  let v50 : BitVec 1 := Scalar.cmpi .ne v49 c0_i32_37
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S128x128_S128x128_1_0 : S128x128.Transposes [1, 0] S128x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  shapeCasts_S2048x128_S2048x8x16 : S2048x128.ShapeCasts S2048x8x16
  transposes_S2048x8x16_S8x2048x16_1_0_2 : S2048x8x16.Transposes [1, 0, 2] S8x2048x16
  bitsLt_bf16_f32 : FTy.bits .bf16 < FTy.bits .f32
  transposes_S2048x2048x8_S8x2048x2048_2_0_1 : S2048x2048x8.Transposes [2, 0, 1] S8x2048x2048
  bcast_S_S2048 : S_.BroadcastsInDim S2048 (![] : Fin 0 → Fin S2048.rank)
  shapeCasts_S2048_S1x1x2048 : S2048.ShapeCasts S1x1x2048
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x16_S8x256x16_0_0_0 : ∀ a, (![0, 0, 0] : Fin 3 → Nat) a + S8x256x16.size a ≤ S8x256x16.size a
  h_S8x256x16 : 0 < S8x256x16.numel
  shapeCasts_S8x256x16_S8x256x16 : S8x256x16.ShapeCasts S8x256x16
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S8x256x256 : S1x1x256.Broadcasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  broadcasts_S8x256x1_S8x256x16 : S8x256x1.Broadcasts S8x256x16
  transposes_S8x2048x16_S2048x8x16_1_0_2 : S8x2048x16.Transposes [1, 0, 2] S2048x8x16
  shapeCasts_S2048x8x16_S2048x128 : S2048x8x16.ShapeCasts S2048x128
  dot_S2048x128_S128x128_S2048x128_1_0_0_1_n_n_wf : DotDims.WF S2048x128 S128x128 S2048x128 [1] [0] [0] [1] [] []
  dot_S8x256x16_S8x256x16_S8x256x256_2_2_1_1_0_0_wf : DotDims.WF S8x256x16 S8x256x16 S8x256x256 [2] [2] [1] [1] [0] [0]
  dot_S8x256x256_S8x256x16_S8x256x16_2_1_1_2_0_0_wf : DotDims.WF S8x256x256 S8x256x16 S8x256x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x16.size a ≤ S8x2048x16.size a
  hwx0_0 : ∀ i : grid0.Coords, EltTy.bits .bf16 = 32 ∨ (Rect.block (s := S8x2048x16) S8x256x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x16.size a ≤ S8x2048x16.size a
  hwx0_1 : ∀ i : grid0.Coords, EltTy.bits .bf16 = 32 ∨ (Rect.block (s := S8x2048x16) S8x256x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x16.size a ≤ S8x2048x16.size a
  hwx0_2 : ∀ i : grid0.Coords, EltTy.bits .bf16 = 32 ∨ (Rect.block (s := S8x2048x16) S8x256x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S8x2048x2048.size a
  hwx0_3 : ∀ i : grid0.Coords, EltTy.bits .f32 = 32 ∨ (Rect.block (s := S8x2048x2048) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S1x1x2048.size a
  hwx0_4 : ∀ i : grid0.Coords, EltTy.bits .f32 = 32 ∨ (Rect.block (s := S1x1x2048) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x16.size a ≤ S8x2048x16.size a
  hwx0_5 : ∀ i : grid0.Coords, EltTy.bits .f32 = 32 ∨ (Rect.block (s := S8x2048x16) S8x256x16.size (cc0_transform_5 i) (hinb0_5 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S8x256x16_S8x256x16_S8x256x256_2_2_1_1_0_0 : DotDims S8x256x16 S8x256x16 S8x256x256 where
  lhsContracting := [2]
  rhsContracting := [2]
  lhsNonContracting := [1]
  rhsNonContracting := [1]
  lhsBatch := [0]
  rhsBatch := [0]
  wf := dot_S8x256x16_S8x256x16_S8x256x256_2_2_1_1_0_0_wf
def dot_S8x256x256_S8x256x16_S8x256x16_2_1_1_2_0_0 : DotDims S8x256x256 S8x256x16 S8x256x16 where
  lhsContracting := [2]
  rhsContracting := [1]
  lhsNonContracting := [1]
  rhsNonContracting := [2]
  lhsBatch := [0]
  rhsBatch := [0]
  wf := dot_S8x256x256_S8x256x16_S8x256x16_2_1_1_2_0_0_wf

abbrev win0_0 : Pipeline.Window sig grid0 :=
  Pipeline.Window.ofSpec (Memref.whole main_v19) S8x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8x256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S8x256x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x128 : Shape := ⟨2, ![2048, 128]⟩
abbrev S2048x2048x8 : Shape := ⟨3, ![2048, 2048, 8]⟩
abbrev S2048 : Shape := ⟨1, ![2048]⟩
abbrev S128x128 : Shape := ⟨2, ![128, 128]⟩
abbrev S128 : Shape := ⟨1, ![128]⟩
abbrev S1x128 : Shape := ⟨2, ![1, 128]⟩
abbrev S2048x8x16 : Shape := ⟨3, ![2048, 8, 16]⟩
abbrev S8x2048x16 : Shape := ⟨3, ![8, 2048, 16]⟩
abbrev S8x2048x2048 : Shape := ⟨3, ![8, 2048, 2048]⟩
abbrev S_ : Shape := ⟨0, ![]⟩
abbrev S1x1x2048 : Shape := ⟨3, ![1, 1, 2048]⟩
abbrev S8x2048 : Shape := ⟨2, ![8, 2048]⟩
abbrev S8x2048x1 : Shape := ⟨3, ![8, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2048x8, .f32⟩
  | .hbm, ⟨2, _⟩ => ⟨S2048, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S2048x128, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S2048x8x16, .f32⟩
  | .hbm, ⟨17, _⟩ => ⟨S8x2048x16, .f32⟩
  | .hbm, ⟨18, _⟩ => ⟨S128x128, .f32⟩
  | .hbm, ⟨19, _⟩ => ⟨S2048x128, .f32⟩
  | .hbm, ⟨20, _⟩ => ⟨S1x128, .f32⟩
  | .hbm, ⟨21, _⟩ => ⟨S2048x128, .f32⟩
  | .hbm, ⟨22, _⟩ => ⟨S2048x128, .f32⟩
  | .hbm, ⟨23, _⟩ => ⟨S2048x8x16, .f32⟩
  | .hbm, ⟨24, _⟩ => ⟨S8x2048x16, .f32⟩
  | .hbm, ⟨25, _⟩ => ⟨S128x128, .f32⟩
  | .hbm, ⟨26, _⟩ => ⟨S2048x128, .f32⟩
  | .hbm, ⟨27, _⟩ => ⟨S1x128, .f32⟩
  | .hbm, ⟨28, _⟩ => ⟨S2048x128, .f32⟩
  | .hbm, ⟨29, _⟩ => ⟨S2048x128, .f32⟩
  | .hbm, ⟨30, _⟩ => ⟨S2048x8x16, .f32⟩
  | .hbm, ⟨31, _⟩ => ⟨S8x2048x16, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S1x1x2048, .i1⟩
  | .hbm, ⟨39, _⟩ => ⟨S_, .f32⟩
  | .hbm, ⟨40, _⟩ => ⟨S_, .f32⟩
  | .hbm, ⟨41, _⟩ => ⟨S8x2048x2048, .i1⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S8x2048x2048, .f32⟩
  | .hbm, ⟨57, _⟩ => ⟨S8x2048x2048, .f32⟩
  | .hbm, ⟨58, _⟩ => ⟨S8x2048x16, .f32⟩
  | .hbm, ⟨59, _⟩ => ⟨S2048x8x16, .f32⟩
  | .hbm, ⟨60, _⟩ => ⟨S2048x128, .f32⟩
  | .hbm, ⟨61, _⟩ => ⟨S128x128, .f32⟩
  | .hbm, ⟨62, _⟩ => ⟨S2048x128, .f32⟩
  | .hbm, ⟨63, _⟩ => ⟨S1x128, .f32⟩
  | .hbm, ⟨64, _⟩ => ⟨S2048x128, .f32⟩
  | .hbm, ⟨65, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  shapeCasts_S2048x128_S2048x8x16 : S2048x128.ShapeCasts S2048x8x16
  transposes_S2048x8x16_S8x2048x16_1_0_2 : S2048x8x16.Transposes [1, 0, 2] S8x2048x16
  bcast_S_S8x2048x2048 : S_.BroadcastsInDim S8x2048x2048 (![] : Fin 0 → Fin S8x2048x2048.rank)
  transposes_S2048x2048x8_S8x2048x2048_2_0_1 : S2048x2048x8.Transposes [2, 0, 1] S8x2048x2048
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  transposes_S8x2048x16_S2048x8x16_1_0_2 : S8x2048x16.Transposes [1, 0, 2] S2048x8x16
  shapeCasts_S2048x8x16_S2048x128 : S2048x8x16.ShapeCasts S2048x128
  dot_S2048x128_S128x128_S2048x128_1_0_0_1_n_n_wf : DotDims.WF S2048x128 S128x128 S2048x128 [1] [0] [0] [1] [] []
  dot_S8x2048x16_S8x2048x16_S8x2048x2048_2_2_1_1_0_0_wf : DotDims.WF S8x2048x16 S8x2048x16 S8x2048x2048 [2] [2] [1] [1] [0] [0]
  dot_S8x2048x2048_S8x2048x16_S8x2048x16_2_1_1_2_0_0_wf : DotDims.WF S8x2048x2048 S8x2048x16 S8x2048x16 [2] [1] [1] [2] [0] [0]

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S8x2048x16_S8x2048x16_S8x2048x2048_2_2_1_1_0_0 : DotDims S8x2048x16 S8x2048x16 S8x2048x2048 where
  lhsContracting := [2]
  rhsContracting := [2]
  lhsNonContracting := [1]
  rhsNonContracting := [1]
  lhsBatch := [0]
  rhsBatch := [0]
  wf := dot_S8x2048x16_S8x2048x16_S8x2048x2048_2_2_1_1_0_0_wf
def dot_S8x2048x2048_S8x2048x16_S8x2048x16_2_1_1_2_0_0 : DotDims S8x2048x2048 S8x2048x16 S8x2048x16 where
  lhsContracting := [2]
  rhsContracting := [1]
  lhsNonContracting := [1]
  rhsNonContracting := [2]
  lhsBatch := [0]
  rhsBatch := [0]
  wf := dot_S8x2048x2048_S8x2048x16_S8x2048x16_2_1_1_2_0_0_wf

class Facts : Prop extends Facts₀ where

variable [Facts]
-- ==== Proof.AttnSpec.lean ====
/-
  Multi-head attention with an additive bias and a key-padding mask, as index-by-index functions over the
  extended reals, free of any program.

  * `score`: the score of a query row against a key in one head — the inner product of the two 16-vectors times a
    scale, plus the bias entry; on a masked key the score is −∞.
  * `attend`: the softmax weights of one row, taken against a reference point `M`, applied to one column of the
    values: Σₖ (e^(Sₖ − M) / Σⱼ e^(Sⱼ − M)) · vₖ.  For a real `M` the value does not depend on `M`.
  * `flashStep`, `flashState`: the same row computed in one pass over eight blocks of 256 keys, carrying the running
    maximum m, the running normaliser l = Σ e^(Sₖ − m) and the running weighted sum acc = Σ e^(Sₖ − m) · vₖ; when the
    maximum rises from m to m' the two sums are rescaled by e^(m − m').
-/
import Idealize.ShloMosaic.PureOps.Ideal.Laws
import Idealize.ShloMosaic.Lib.ValueIdx

noncomputable section

namespace Cert.Attn

open Idealize.ShloMosaic Idealize.ShloMosaic.ValueIdx

/-- heads × rows × head dimension -/
abbrev SHND : Shape := ⟨3, ![8, 2048, 16]⟩
/-- heads × query rows × keys -/
abbrev SHNN : Shape := ⟨3, ![8, 2048, 2048]⟩

/-- An extended real that is a real number. -/
def IsReal (x : EReal) : Prop := ∃ r : ℝ, x = (r : EReal)

/-- The score of query row `n` against key `kk` in head `h`. -/
def score (c : EReal) (q k : SHND.Idx → EReal) (b : SHNN.Idx → EReal) (msk : Fin 2048 → BitVec 1)
    (h : Fin 8) (n kk : Fin 2048) : EReal :=
  if msk kk = 1#1 then ⊥ else (∑ d : Fin 16, q (ix3 h n d) * k (ix3 h kk d)) * c + b (ix3 h n kk)

/-- One row's softmax weights against the point `M`, applied to the column `v`. -/
def attend (S : Fin 2048 → EReal) (M : EReal) (v : Fin 2048 → EReal) : EReal :=
  ∑ kk : Fin 2048, Ideal.div (Ideal.exp (S kk - M)) (0 + ∑ k' : Fin 2048, Ideal.exp (S k' - M)) * v kk

/-- Block `j` (of 256 keys) of a function of the key. -/
def blk (f : Fin 2048 → EReal) (j : ℕ) (kk : Fin 256) : EReal :=
  f ⟨(256 * j + kk.val) % 2048, Nat.mod_lt _ (by norm_num)⟩

/-- One step of the one-pass softmax over a block of keys, on the state (m, l, acc). -/
def flashStep (s v : Fin 256 → EReal) (st : EReal × EReal × EReal) : EReal × EReal × EReal :=
  (max st.1 ((Finset.univ : Finset (Fin 256)).fold max ⊥ s),
   Ideal.exp (st.1 - max st.1 ((Finset.univ : Finset (Fin 256)).fold max ⊥ s)) * st.2.1
     + ∑ kk : Fin 256, Ideal.exp (s kk - max st.1 ((Finset.univ : Finset (Fin 256)).fold max ⊥ s)),
   Ideal.exp (st.1 - max st.1 ((Finset.univ : Finset (Fin 256)).fold max ⊥ s)) * st.2.2
     + ∑ kk : Fin 256, Ideal.exp (s kk - max st.1 ((Finset.univ : Finset (Fin 256)).fold max ⊥ s)) * v kk)

/-- The state after blocks 0 … j, from the empty state (−∞, 0, 0). -/
def flashState (S V : Fin 2048 → EReal) : ℕ → EReal × EReal × EReal
  | 0 => flashStep (blk S 0) (blk V 0) (⊥, 0, 0)
  | j + 1 => flashStep (blk S (j + 1)) (blk V (j + 1)) (flashState S V j)

end Cert.Attn

end
-- ==== Proof.PreFacts.lean ====
/-
  What the precondition says, entry by entry: every float input is a real number at every index (|x| < +∞ on the
  extended reals excludes exactly ±∞), and some key is not masked (the disjunction, over the keys, of the negated mask
  is true).
-/
import proofs.«414598_j56530359550887_3_alg».proof.Pre_finite_inputs
import proofs.«414598_j56530359550887_3_alg».proof.Proof.Gen.Pre_finite_inputs
import proofs.«414598_j56530359550887_3_alg».proof.Proof.AttnSpec
import Idealize.ShloMosaic.Lib.ReduceAll
import Idealize.ShloMosaic.Lib.StableHlo.Predicate

noncomputable section

namespace Cert.Attn

open Idealize.ShloMosaic Idealize.ShloMosaic.ValueIdx Cert.Pre_finite_inputs

/-- The shape of a scalar has one index. -/
instance subsingleton_scalar_idx : Subsingleton S_.Idx := ⟨fun _ _ => funext fun d => d.elim0⟩

/-- On the extended reals |x| = max x (−x) is below +∞ only at a real number: at +∞ and at −∞ it is +∞. -/
theorem isReal_of_abs_lt_top (x : EReal) (h : max x (-x) < ⊤) : IsReal x := by
  induction x using EReal.rec with
  | bot => simp at h
  | top => simp at h
  | coe r => exact ⟨r, rfl⟩

/-- One element of the comparison |x| < +∞, true: the element is a real number. -/
theorem isReal_of_abs_olt_inf (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_contra hn
  have hlt : ¬ (max (x : EReal) (-(x : EReal)) < ⊤) := fun hl => hn (isReal_of_abs_lt_top x hl)
  simp [hlt] at h

/-- The conjunction over all indices of |x| < +∞, true: every element of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : IsReal (x i) :=
  isReal_of_abs_olt_inf (x i) (Host.reduce_andi_all _ _ hr hu ix0 e i)

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from 0 that is 1 had a 1 among its operand's elements. -/
theorem reduce_ori_exists {s t u : Shape} {axes : List (Fin s.rank)} (x : s.Idx → BitVec 1) (init : u.Idx → BitVec 1)
    (h : s.ReducesTo axes t) (hu : 0 < u.numel) (j : t.Idx) (h0 : init (Shape.Idx.first hu) ≠ 1#1)
    (e : Host.reduce IntOp.ori x init h hu j = 1#1) : ∃ i, x i = 1#1 := by
  rw [Host.reduce_eq_foldl] at e
  rcases foldl_ori_eq_one x _ _ e with h1 | ⟨n, _, hf⟩
  · exact absurd h1 h0
  · exact ⟨n, hf⟩

/-- The printed precondition, true, gives: all ten float inputs real everywhere, and an unmasked key. -/
theorem pre_decode (x0 : FVec Ideal S2048x128 .f32) (x1 : FVec Ideal S2048x2048x8 .f32) (x2 : IVec S2048 1)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x128 .f32) (x10 : FVec Ideal S128 .f32)
    (h : Cert.Pre_finite_inputs.fn (F := Ideal) x0 x1 x2 x3 x4 x5 x6 x7 x8 x9 x10 = fun _ => 1#1) :
    (∀ i, IsReal (x0 i)) ∧ (∀ i, IsReal (x1 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) ∧ (∀ i, IsReal (x10 i))
      ∧ ∃ k : Fin 2048, x2 (ix1 k) ≠ 1#1 := by
  have h0 := congrFun h ValueIdx.ix0
  dsimp only [fn, fn_part1, fn_part2, fn_part3] at h0
  -- a conjunction of two scalars that is true: both are
  have hand : ∀ a b : IVec S_ 1, andi a b ix0 = 1#1 → a ix0 = 1#1 ∧ b ix0 = 1#1 := fun _ _ e => IntOp.andi_eq_one.1 e
  obtain ⟨h0, hk⟩ := hand _ _ h0
  obtain ⟨h0, e10⟩ := hand _ _ h0
  obtain ⟨h0, e9⟩ := hand _ _ h0
  obtain ⟨h0, e8⟩ := hand _ _ h0
  obtain ⟨h0, e7⟩ := hand _ _ h0
  obtain ⟨h0, e6⟩ := hand _ _ h0
  obtain ⟨h0, e5⟩ := hand _ _ h0
  obtain ⟨h0, e4⟩ := hand _ _ h0
  obtain ⟨h0, e3⟩ := hand _ _ h0
  obtain ⟨e0, e1⟩ := hand _ _ h0
  refine ⟨all_real x0 _ _ _ e0, all_real x1 _ _ _ e1, all_real x3 _ _ _ e3, all_real x4 _ _ _ e4, all_real x5 _ _ _ e5,
    all_real x6 _ _ _ e6, all_real x7 _ _ _ e7, all_real x8 _ _ _ e8, all_real x9 _ _ _ e9, all_real x10 _ _ _ e10, ?_⟩
  -- the disjunction over the keys of the negated mask is true: the mask is 0 at some key
  obtain ⟨i, hi⟩ := reduce_ori_exists (noti x2) _ _ _ ix0 (by show (0#1 : BitVec 1) ≠ 1#1; decide) hk
  exact ⟨i 0, fun hx => IntOp.not_eq_one.1 hi ((congrArg x2 (eq_ix1 i)).trans hx)⟩

end Cert.Attn

end
-- ==== Proof.KernelBlocks.lean ====
/-
  Which entry of its array each entry of a window's block is.

  The grid has 8 × 8 points; point t works on query block t / 8 and key block t % 8.  The query and output blocks hold
  rows 256·(t/8) … of the [8, 2048, 16] arrays, the key and value blocks rows 256·(t%8) …, the bias block the
  [8, 256, 256] tile at (t/8, t%8), the mask block keys 256·(t%8) … of the [1, 1, 2048] array.
-/
import proofs.«414598_j56530359550887_3_alg».proof.Proof.Gen.KernelIdeal.Frame
import Idealize.ShloMosaic.Lib.ValueIdx

set_option maxRecDepth 16384

noncomputable section

namespace Cert.Attn.Kern

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The arrays the region reads, as it finds them. -/
abbrev qArr (c : Dev nD) : Vec Ideal S8x2048x16 .bf16 := V m c main_v19
abbrev kArr (c : Dev nD) : Vec Ideal S8x2048x16 .bf16 := V m c main_v21
abbrev vArr (c : Dev nD) : Vec Ideal S8x2048x16 .bf16 := V m c main_v23
abbrev bArr (c : Dev nD) : Vec Ideal S8x2048x2048 .f32 := V m c main_v24
abbrev mArr (c : Dev nD) : Vec Ideal S1x1x2048 .f32 := V m c main_v27

/-- Their blocks at a grid point. -/
abbrev qBlk (c : Dev nD) (t : Fin cfg0.N) : Vec Ideal S8x256x16 .bf16 := iblk m c 0 t
abbrev kBlk (c : Dev nD) (t : Fin cfg0.N) : Vec Ideal S8x256x16 .bf16 := iblk m c 1 t
abbrev vBlk (c : Dev nD) (t : Fin cfg0.N) : Vec Ideal S8x256x16 .bf16 := iblk m c 2 t
abbrev bBlk (c : Dev nD) (t : Fin cfg0.N) : Vec Ideal S8x256x256 .f32 := iblk m c 3 t
abbrev mBlk (c : Dev nD) (t : Fin cfg0.N) : Vec Ideal S1x1x256 .f32 := iblk m c 4 t

theorem lt64 (t : Fin cfg0.N) : t.val < 64 := lt_of_lt_of_eq t.isLt (show cfg0.N = 64 from N_0)

/-- Row r of the query block of point t, as a row of the whole array. -/
def rowOf (t : Fin cfg0.N) (r : Fin 256) : Fin 2048 := ⟨256 * (t.val / 8) + r.val, by have := lt64 t; have := r.isLt; omega⟩
/-- Key kk of the key block of point t, as a key of the whole array. -/
def keyOf (t : Fin cfg0.N) (kk : Fin 256) : Fin 2048 := ⟨256 * (t.val % 8) + kk.val, by have := lt64 t; have := kk.isLt; omega⟩

/-- The printed index maps, decided over the grid. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 3) = 0 ∧ win0_2.index t (1 : Fin 3) = t.val % 8 ∧ win0_2.index t (2 : Fin 3) = 0
    ∧ win0_3.index t (0 : Fin 3) = 0 ∧ win0_3.index t (1 : Fin 3) = t.val / 8 ∧ win0_3.index t (2 : Fin 3) = t.val % 8
    ∧ win0_4.index t (0 : Fin 3) = 0 ∧ win0_4.index t (1 : Fin 3) = 0 ∧ win0_4.index t (2 : Fin 3) = t.val % 8
    ∧ win0_5.index t (0 : Fin 3) = 0 ∧ win0_5.index t (1 : Fin 3) = t.val / 8 ∧ win0_5.index t (2 : Fin 3) = 0 :=
  (by decide +kernel : ∀ t : Fin grid0.N, _)

/-- The query block's entry (h, r, d) is the query array's at (h, 256·(t/8) + r, d). -/
theorem qBlk_apply (c : Dev nD) (t : Fin cfg0.N) (h : Fin 8) (r : Fin 256) (d : Fin 16) :
    qBlk m c t (ix3 h r d) = qArr m c (ix3 h (rowOf t r) d) := by
  obtain ⟨e0, e1, e2, -⟩ := idx_facts t
  show V m c main_v19 (((cfg0.win 0).blk t).view.emb (ix3 h r d)) = V m c main_v19 (ix3 h (rowOf t r) d)
  refine congrArg (V m c main_v19) (funext fun a => Fin.ext ?_)
  match a with
  | ⟨0, _⟩ => show win0_0.index t (0 : Fin 3) * 8 + 1 * h.val = h.val; omega
  | ⟨1, _⟩ => show win0_0.index t (1 : Fin 3) * 256 + 1 * r.val = 256 * (t.val / 8) + r.val; omega
  | ⟨2, _⟩ => show win0_0.index t (2 : Fin 3) * 16 + 1 * d.val = d.val; omega

/-- The key block's entry (h, kk, d) is the key array's at (h, 256·(t%8) + kk, d). -/
theorem kBlk_apply (c : Dev nD) (t : Fin cfg0.N) (h : Fin 8) (kk : Fin 256) (d : Fin 16) :
    kBlk m c t (ix3 h kk d) = kArr m c (ix3 h (keyOf t kk) d) := by
  obtain ⟨-, -, -, e0, e1, e2, -⟩ := idx_facts t
  show V m c main_v21 (((cfg0.win 1).blk t).view.emb (ix3 h kk d)) = V m c main_v21 (ix3 h (keyOf t kk) d)
  refine congrArg (V m c main_v21) (funext fun a => Fin.ext ?_)
  match a with
  | ⟨0, _⟩ => show win0_1.index t (0 : Fin 3) * 8 + 1 * h.val = h.val; omega
  | ⟨1, _⟩ => show win0_1.index t (1 : Fin 3) * 256 + 1 * kk.val = 256 * (t.val % 8) + kk.val; omega
  | ⟨2, _⟩ => show win0_1.index t (2 : Fin 3) * 16 + 1 * d.val = d.val; omega

/-- The value block's entry (h, kk, d) is the value array's at (h, 256·(t%8) + kk, d). -/
theorem vBlk_apply (c : Dev nD) (t : Fin cfg0.N) (h : Fin 8) (kk : Fin 256) (d : Fin 16) :
    vBlk m c t (ix3 h kk d) = vArr m c (ix3 h (keyOf t kk) d) := by
  obtain ⟨-, -, -, -, -, -, e0, e1, e2, -⟩ := idx_facts t
  show V m c main_v23 (((cfg0.win 2).blk t).view.emb (ix3 h kk d)) = V m c main_v23 (ix3 h (keyOf t kk) d)
  refine congrArg (V m c main_v23) (funext fun a => Fin.ext ?_)
  match a with
  | ⟨0, _⟩ => show win0_2.index t (0 : Fin 3) * 8 + 1 * h.val = h.val; omega
  | ⟨1, _⟩ => show win0_2.index t (1 : Fin 3) * 256 + 1 * kk.val = 256 * (t.val % 8) + kk.val; omega
  | ⟨2, _⟩ => show win0_2.index t (2 : Fin 3) * 16 + 1 * d.val = d.val; omega

/-- The bias block's entry (h, r, kk) is the bias array's at (h, 256·(t/8) + r, 256·(t%8) + kk). -/
theorem bBlk_apply (c : Dev nD) (t : Fin cfg0.N) (h : Fin 8) (r kk : Fin 256) :
    bBlk m c t (ix3 h r kk) = bArr m c (ix3 h (rowOf t r) (keyOf t kk)) := by
  obtain ⟨-, -, -, -, -, -, -, -, -, e0, e1, e2, -⟩ := idx_facts t
  show V m c main_v24 (((cfg0.win 3).blk t).view.emb (ix3 h r kk)) = V m c main_v24 (ix3 h (rowOf t r) (keyOf t kk))
  refine congrArg (V m c main_v24) (funext fun a => Fin.ext ?_)
  match a with
  | ⟨0, _⟩ => show win0_3.index t (0 : Fin 3) * 8 + 1 * h.val = h.val; omega
  | ⟨1, _⟩ => show win0_3.index t (1 : Fin 3) * 256 + 1 * r.val = 256 * (t.val / 8) + r.val; omega
  | ⟨2, _⟩ => show win0_3.index t (2 : Fin 3) * 256 + 1 * kk.val = 256 * (t.val % 8) + kk.val; omega

/-- The mask block's entry (0, 0, kk) is the mask array's at (0, 0, 256·(t%8) + kk). -/
theorem mBlk_apply (c : Dev nD) (t : Fin cfg0.N) (kk : Fin 256) :
    mBlk m c t (ix3 (0 : Fin 1) (0 : Fin 1) kk) = mArr m c (ix3 (0 : Fin 1) (0 : Fin 1) (keyOf t kk)) := by
  obtain ⟨-, -, -, -, -, -, -, -, -, -, -, -, e0, e1, e2, -⟩ := idx_facts t
  show V m c main_v27 (((cfg0.win 4).blk t).view.emb (ix3 (0 : Fin 1) (0 : Fin 1) kk)) = V m c main_v27 (ix3 (0 : Fin 1) (0 : Fin 1) (keyOf t kk))
  refine congrArg (V m c main_v27) (funext fun a => Fin.ext ?_)
  match a with
  | ⟨0, _⟩ => show win0_4.index t (0 : Fin 3) * 1 + 1 * (0 : Fin 1).val = (0 : Fin 1).val; omega
  | ⟨1, _⟩ => show win0_4.index t (1 : Fin 3) * 1 + 1 * (0 : Fin 1).val = (0 : Fin 1).val; omega
  | ⟨2, _⟩ => show win0_4.index t (2 : Fin 3) * 256 + 1 * kk.val = 256 * (t.val % 8) + kk.val; omega

/-- Where the output block's entry (h, r, d) sits in the output array. -/
theorem out_emb (t : Fin cfg0.N) (h : Fin 8) (r : Fin 256) (d : Fin 16) :
    ((cfg0.win 5).blk t).view.emb (ix3 h r d) = (ix3 h (rowOf t r) d : S8x2048x16.Idx) := by
  obtain ⟨-, -, -, -, -, -, -, -, -, -, -, -, -, -, -, e0, e1, e2⟩ := idx_facts t
  refine funext fun a => Fin.ext ?_
  match a with
  | ⟨0, _⟩ => show win0_5.index t (0 : Fin 3) * 8 + 1 * h.val = h.val; omega
  | ⟨1, _⟩ => show win0_5.index t (1 : Fin 3) * 256 + 1 * r.val = 256 * (t.val / 8) + r.val; omega
  | ⟨2, _⟩ => show win0_5.index t (2 : Fin 3) * 16 + 1 * d.val = d.val; omega

/-- An index of the output array is in point t's block iff each coordinate is in the block's range. -/
theorem mem_out_blk (t : Fin cfg0.N) (i : S8x2048x16.Idx) :
    i ∈ ((cfg0.win 5).blk t).view.set ↔ ∀ a : Fin 3, win0_5.index t a * S8x256x16.size a ≤ (i a).val ∧ (i a).val < win0_5.index t a * S8x256x16.size a + S8x256x16.size a := by
  show i ∈ ((View.whole main_v28).slice (win0_5.rect t)).set ↔ _
  rw [View.set_slice_whole, Rect.mem_set_unit]
  exact Iff.rfl

/-- Every entry of the output array is written back by the last point of its query block. -/
theorem out_cover (i : S8x2048x16.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 16 := (i 2).isLt
  let t : Fin cfg0.N := ⟨8 * ((i 1).val / 256) + 7, lt_of_lt_of_eq (by omega) (show (64 : ℕ) = cfg0.N from N_0.symm)⟩
  have ht : t.val = 8 * ((i 1).val / 256) + 7 := rfl
  obtain ⟨-, -, -, -, -, -, -, -, -, -, -, -, -, -, -, e0, e1, e2⟩ := idx_facts t
  refine ⟨t, (flush0_5 t).mpr (by omega), (mem_out_blk t i).mpr fun a => ?_⟩
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 256 ≤ (i 1).val ∧ (i 1).val < win0_5.index t (1 : Fin 3) * 256 + 256; omega
  | ⟨2, _⟩ => show win0_5.index t (2 : Fin 3) * 16 ≤ (i 2).val ∧ (i 2).val < win0_5.index t (2 : Fin 3) * 16 + 16; omega

end Cert.Attn.Kern

end
-- ==== Proof.KernelPieces.lean ====
/-
  What each case of the kernel body leaves in the three carried buffers — the running maximum m, the running
  normaliser l, the running weighted sum acc — and, at the last key block, in the output block, as pure functions of
  the five input blocks and of what the point before left:
    m'   = max(m, rowmax(s)),                   s = q·kᵀ·¼ + bias + mask,
    l'   = e^(m − m')·l + Σ e^(s − m'),
    acc' = e^(m − m')·acc + e^(s − m')·v,
    out  = acc' / l'   (last key block only).
  At the first key block the three buffers are first reset to (−∞, 0, 0), so the same formulas apply to those constants.
-/
import proofs.«414598_j56530359550887_3_alg».proof.Proof.Gen.KernelIdeal.Frame
import Idealize.ShloMosaic.Lib.Pipeline.Value

set_option maxRecDepth 16384

noncomputable section

namespace Cert.Attn.Kern

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords)
  (arg2 : Memref sig .tc .vmem S8x256x16 .bf16) (harg2 : arg2.IsWhole) (arg3 : Memref sig .tc .vmem S8x256x16 .bf16) (harg3 : arg3.IsWhole)
  (arg4 : Memref sig .tc .vmem S8x256x16 .bf16) (harg4 : arg4.IsWhole) (arg5 : Memref sig .tc .vmem S8x256x256 .f32) (harg5 : arg5.IsWhole)
  (arg6 : Memref sig .tc .vmem S1x1x256 .f32) (harg6 : arg6.IsWhole) (arg7 : Memref sig .tc .vmem S8x256x16 .f32) (harg7 : arg7.IsWhole)
  (arg8 : Memref sig .tc .vmem S8x256x1 .f32) (harg8 : arg8.IsWhole) (arg9 : Memref sig .tc .vmem S8x256x1 .f32) (harg9 : arg9.IsWhole)
  (arg10 : Memref sig .tc .vmem S8x256x16 .f32) (harg10 : arg10.IsWhole)
  (x0 x1 x2 : Vec F S8x256x16 .bf16) (x3 : Vec F S8x256x256 .f32) (x4 : Vec F S1x1x256 .f32)
  (xs0 xs1 : Vec F S8x256x1 .f32) (xs2 : Vec F S8x256x16 .f32)

theorem hz3 : (![0, 0, 0] : Fin 3 → Nat) = fun _ => 0 := by
  funext a; match a with | ⟨0, _⟩ => rfl | ⟨1, _⟩ => rfl | ⟨2, _⟩ => rfl

/-! ## First key block: from the reset state -/

theorem first_m (hc0 : cond0_0 i) (hc1 : ¬cond0_1 i) :
    sout0_A_0 (F := F) c i arg2 harg2 arg3 harg3 arg4 harg4 arg5 harg5 arg6 harg6 arg7 harg7 arg8 harg8 arg9 harg9 arg10 harg10 hc0 hc1 x0 x1 x2 x3 x4
      = k0_pay3 (k0_pay10 x0 x1 x3 x4 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S8x256x1) hz3, View.readCov_unit_zero (S := S8x256x1) _ hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem first_l (hc0 : cond0_0 i) (hc1 : ¬cond0_1 i) :
    sout0_A_1 (F := F) c i arg2 harg2 arg3 harg3 arg4 harg4 arg5 harg5 arg6 harg6 arg7 harg7 arg8 harg8 arg9 harg9 arg10 harg10 hc0 hc1 x0 x1 x2 x3 x4
      = k0_pay1 (k0_pay12 x0 x1 x3 x4 (k0_pay5 (F := F))) (k0_pay13 x0 x1 x3 x4 (k0_pay5 (F := F)) (k0_pay6 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S8x256x1) hz3, View.readCov_unit_zero (S := S8x256x1) _ hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem first_acc (hc0 : cond0_0 i) (hc1 : ¬cond0_1 i) :
    sout0_A_2 (F := F) c i arg2 harg2 arg3 harg3 arg4 harg4 arg5 harg5 arg6 harg6 arg7 harg7 arg8 harg8 arg9 harg9 arg10 harg10 hc0 hc1 x0 x1 x2 x3 x4
      = k0_pay2 (k0_pay8 x2) (k0_pay11 x0 x1 x3 x4 (k0_pay5 (F := F))) (k0_pay12 x0 x1 x3 x4 (k0_pay5 (F := F))) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S8x256x16) hz3, View.readCov_unit_zero (S := S8x256x16) _ hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

/-! ## A middle key block: from what the block before left -/

theorem mid_m (hc0 : ¬cond0_0 i) (hc1 : ¬cond0_1 i) :
    sout0_B_0 (F := F) c i arg2 harg2 arg3 harg3 arg4 harg4 arg5 harg5 arg6 harg6 arg7 harg7 arg8 harg8 arg9 harg9 arg10 harg10 hc0 hc1 x0 x1 x2 x3 x4 xs0 xs1 xs2
      = k0_pay3 (k0_pay10 x0 x1 x3 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem mid_l (hc0 : ¬cond0_0 i) (hc1 : ¬cond0_1 i) :
    sout0_B_1 (F := F) c i arg2 harg2 arg3 harg3 arg4 harg4 arg5 harg5 arg6 harg6 arg7 harg7 arg8 harg8 arg9 harg9 arg10 harg10 hc0 hc1 x0 x1 x2 x3 x4 xs0 xs1 xs2
      = k0_pay1 (k0_pay12 x0 x1 x3 x4 xs0) (k0_pay13 x0 x1 x3 x4 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem mid_acc (hc0 : ¬cond0_0 i) (hc1 : ¬cond0_1 i) :
    sout0_B_2 (F := F) c i arg2 harg2 arg3 harg3 arg4 harg4 arg5 harg5 arg6 harg6 arg7 harg7 arg8 harg8 arg9 harg9 arg10 harg10 hc0 hc1 x0 x1 x2 x3 x4 xs0 xs1 xs2
      = k0_pay2 (k0_pay8 x2) (k0_pay11 x0 x1 x3 x4 xs0) (k0_pay12 x0 x1 x3 x4 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

/-! ## The last key block: the same update, and the normalised output -/

theorem last_m (hc0 : ¬cond0_0 i) (hc1 : cond0_1 i) :
    sout0_C_0 (F := F) c i arg2 harg2 arg3 harg3 arg4 harg4 arg5 harg5 arg6 harg6 arg7 harg7 arg8 harg8 arg9 harg9 arg10 harg10 hc0 hc1 x0 x1 x2 x3 x4 xs0 xs1 xs2
      = k0_pay3 (k0_pay10 x0 x1 x3 x4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem last_l (hc0 : ¬cond0_0 i) (hc1 : cond0_1 i) :
    sout0_C_1 (F := F) c i arg2 harg2 arg3 harg3 arg4 harg4 arg5 harg5 arg6 harg6 arg7 harg7 arg8 harg8 arg9 harg9 arg10 harg10 hc0 hc1 x0 x1 x2 x3 x4 xs0 xs1 xs2
      = k0_pay1 (k0_pay12 x0 x1 x3 x4 xs0) (k0_pay13 x0 x1 x3 x4 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem last_acc (hc0 : ¬cond0_0 i) (hc1 : cond0_1 i) :
    sout0_C_2 (F := F) c i arg2 harg2 arg3 harg3 arg4 harg4 arg5 harg5 arg6 harg6 arg7 harg7 arg8 harg8 arg9 harg9 arg10 harg10 hc0 hc1 x0 x1 x2 x3 x4 xs0 xs1 xs2
      = k0_pay2 (k0_pay8 x2) (k0_pay11 x0 x1 x3 x4 xs0) (k0_pay12 x0 x1 x3 x4 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

theorem last_out (hc0 : ¬cond0_0 i) (hc1 : cond0_1 i) :
    out0_C_5 (F := F) c i arg2 harg2 arg3 harg3 arg4 harg4 arg5 harg5 arg6 harg6 arg7 harg7 arg8 harg8 arg9 harg9 arg10 harg10 hc0 hc1 x0 x1 x2 x3 x4 xs0 xs1 xs2
      = k0_pay4 (k0_pay2 (k0_pay8 x2) (k0_pay11 x0 x1 x3 x4 xs0) (k0_pay12 x0 x1 x3 x4 xs0) xs2) (k0_pay1 (k0_pay12 x0 x1 x3 x4 xs0) (k0_pay13 x0 x1 x3 x4 xs0 xs1)) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.readCov_unit_zero (S := S8x256x1) _ hz3, View.readCov_unit_zero (S := S8x256x16) _ hz3,
    View.ld_unit_zero (S := S8x256x16) hz3, View.ld_unit_zero (S := S8x256x256) hz3, View.ld_unit_zero (S := S1x1x256) hz3,
    View.ld_unit_zero (S := S8x256x1) hz3]

end Cert.Attn.Kern

end
-- ==== Proof.KernelRows.lean ====
/-
  The kernel body's arithmetic read row by row at the ideal values.  For head h, row r of the query block and key kk
  of the key block:
    s(h, r, kk) = (Σ_d q(h, r, d) · k(h, kk, d)) · ¼ + bias(h, r, kk) + mask(0, 0, kk),
    m'(h, r)    = max(m(h, r), max_kk s(h, r, kk))            (the row maximum taken from −∞),
    l'(h, r)    = e^(m − m') · l(h, r) + Σ_kk e^(s(h, r, kk) − m'),
    acc'(h,r,d) = e^(m − m') · acc(h, r, d) + Σ_kk e^(s(h, r, kk) − m') · v(h, kk, d),
    out(h,r,d)  = acc(h, r, d) / l(h, r),
  and the reset values −∞, 0, 0.  A change of float format is the identity, both batched products are plain sums over
  the contracted coordinate, both lane reductions are a fold of max and a sum over the lane coordinate, and the
  [8,256] ↔ [8,256,1] reshapes and the broadcasts along the last axis only move indices.
-/
import proofs.«414598_j56530359550887_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.Attn.Kern

open Idealize.ShloMosaic Idealize.ShloMosaic.ValueIdx
open Cert.KernelIdeal Cert.KernelIdeal.Gen

variable (x0 x1 x2 : Vec Ideal S8x256x16 .bf16) (x3 : Vec Ideal S8x256x256 .f32) (x4 : Vec Ideal S1x1x256 .f32)
  (xs0 xs1 : Vec Ideal S8x256x1 .f32) (xs2 : Vec Ideal S8x256x16 .f32)
  (h : Fin 8) (r : Fin 256)

/-! ## Words -/

/-- The f32 word of −∞ denotes the bottom of the extended reals. -/
theorem negInfWord_eq_bot : Ideal.ofBits .f32 0xFF800000#32 = (⊥ : EReal) := by simp [Ideal.ofBits, Ideal.ieee]

/-! ## Index moves: the reshape that appends a unit axis, and the broadcasts along the last axis -/

/-- The [8,256] → [8,256,1] reshape read at (h, r, 0) is the operand at (h, r): both have row-major position
    256·h + r. -/
theorem cast_col_apply (v : FVec Ideal S8x256 .f32) (hc : S8x256.ShapeCasts S8x256x1) :
    shapeCast S8x256x1 v hc (ix3 h r (0 : Fin 1)) = v (ix2 h r) := by
  refine shapeCast_apply v hc _ _ ?_
  rw [Shape.rowMajor_val_two, Shape.rowMajor_val_three]
  show h.val * 256 + r.val = (h.val * 256 + r.val) * 1 + 0
  omega

/-- A [8,256,1] column spread over 256 lanes reads, at (h, r, kk), the column's entry of row (h, r). -/
theorem bcast_col256_apply (v : FVec Ideal S8x256x1 .f32) (hb : S8x256x1.Broadcasts S8x256x256) (kk : Fin 256) :
    broadcastTo S8x256x256 v hb (ix3 h r kk) = v (ix3 h r (0 : Fin 1)) := by
  refine broadcastTo_apply v hb _ _ fun a => ?_
  match a with
  | ⟨0, _⟩ => rfl
  | ⟨1, _⟩ => rfl
  | ⟨2, _⟩ => rfl

/-- A [8,256,1] column spread over 16 lanes reads, at (h, r, d), the column's entry of row (h, r). -/
theorem bcast_col16_apply (v : FVec Ideal S8x256x1 .f32) (hb : S8x256x1.Broadcasts S8x256x16) (d : Fin 16) :
    broadcastTo S8x256x16 v hb (ix3 h r d) = v (ix3 h r (0 : Fin 1)) := by
  refine broadcastTo_apply v hb _ _ fun a => ?_
  match a with
  | ⟨0, _⟩ => rfl
  | ⟨1, _⟩ => rfl
  | ⟨2, _⟩ => rfl

/-- The [1,1,256] mask row spread over heads and rows reads, at (h, r, kk), the mask at (0, 0, kk). -/
theorem bcast_mask_apply (v : FVec Ideal S1x1x256 .f32) (hb : S1x1x256.Broadcasts S8x256x256) (kk : Fin 256) :
    broadcastTo S8x256x256 v hb (ix3 h r kk) = v (ix3 (0 : Fin 1) (0 : Fin 1) kk) := by
  refine broadcastTo_apply v hb _ _ fun a => ?_
  match a with
  | ⟨0, _⟩ => rfl
  | ⟨1, _⟩ => rfl
  | ⟨2, _⟩ => rfl

/-! ## The lane reductions -/

/-- The index over (h, r) with lane coordinate kk inserted on the last axis is (h, r, kk). -/
theorem lane_lift (hR : S8x256x256.Reduces [2] S8x256) (kk : Fin 256) :
    hR.lift (ix2 h r) kk = ix3 h r kk := by
  funext a
  refine Fin.ext ?_
  match a with
  | ⟨0, _⟩ => rfl
  | ⟨1, _⟩ => rfl
  | ⟨2, _⟩ => rfl

/-- The lane maximum from −∞, at row (h, r): the fold of max over the 256 lanes. -/
theorem lane_max_apply (S : FVec Ideal S8x256x256 .f32) (hR : S8x256x256.Reduces [2] S8x256)
    (hφ : FKind.Formats .f32) (hacc : 0xFF800000#32 = FKind.maximumf.neutral .f32 hφ) :
    multiReduction (F := Ideal) .maximumf [2] S8x256 S 0xFF800000#32 hR hφ hacc (ix2 h r)
      = (Finset.univ : Finset (Fin 256)).fold max ⊥ (fun kk => S (ix3 h r kk)) := by
  refine (Ideal.multiReduction_maximumf_single S _ hR hφ hacc (ix2 h r)).trans ?_
  show (Finset.univ : Finset (Fin 256)).fold max (Ideal.ofBits .f32 0xFF800000#32) (S ∘ hR.lift (ix2 h r)) = _
  rw [negInfWord_eq_bot]
  exact congrArg (fun f => (Finset.univ : Finset (Fin 256)).fold max ⊥ f)
    (funext fun kk => congrArg S (lane_lift h r hR kk))

/-- The lane sum from 0, at row (h, r): the sum over the 256 lanes. -/
theorem lane_sum_apply (P : FVec Ideal S8x256x256 .f32) (hR : S8x256x256.Reduces [2] S8x256)
    (hφ : FKind.Formats .f32) (hacc : 0x00000000#32 = FKind.add.neutral .f32 hφ) :
    multiReduction (F := Ideal) .add [2] S8x256 P 0x00000000#32 hR hφ hacc (ix2 h r)
      = ∑ kk : Fin 256, P (ix3 h r kk) := by
  refine (Ideal.multiReduction_add_single P _ hR hφ hacc (ix2 h r)).trans ?_
  exact Finset.sum_congr rfl fun kk _ => congrArg P (lane_lift h r hR kk)

/-! ## The first batched product: both operands contracted along their last axis, batched over the head -/

theorem lhs_qk_0 (i : S8x256x256.Idx) (q : dot_S8x256x16_S8x256x16_S8x256x256_2_2_1_1_0_0.contr.Idx) :
    (dot_S8x256x16_S8x256x16_S8x256x256_2_2_1_1_0_0.lhsIdx i q 0).val = (i 0).val := by
  unfold DotDims.lhsIdx
  rw [dif_pos (show (0 : Fin S8x256x16.rank) ∈ dot_S8x256x16_S8x256x16_S8x256x256_2_2_1_1_0_0.lhsBatch by decide)]
  rfl
theorem lhs_qk_1 (i : S8x256x256.Idx) (q : dot_S8x256x16_S8x256x16_S8x256x256_2_2_1_1_0_0.contr.Idx) :
    (dot_S8x256x16_S8x256x16_S8x256x256_2_2_1_1_0_0.lhsIdx i q 1).val = (i 1).val := by
  unfold DotDims.lhsIdx
  rw [dif_neg (show ¬(1 : Fin S8x256x16.rank) ∈ dot_S8x256x16_S8x256x16_S8x256x256_2_2_1_1_0_0.lhsBatch by decide),
    dif_pos (show (1 : Fin S8x256x16.rank) ∈ dot_S8x256x16_S8x256x16_S8x256x256_2_2_1_1_0_0.lhsNonContracting by decide)]
  rfl
theorem lhs_qk_2 (i : S8x256x256.Idx) (q : dot_S8x256x16_S8x256x16_S8x256x256_2_2_1_1_0_0.contr.Idx) :
    (dot_S8x256x16_S8x256x16_S8x256x256_2_2_1_1_0_0.lhsIdx i q 2).val = (q ⟨0, by decide⟩).val :=
  dot_S8x256x16_S8x256x16_S8x256x256_2_2_1_1_0_0.lhsIdx_val_of_single rfl i q
theorem rhs_qk_0 (i : S8x256x256.Idx) (q : dot_S8x256x16_S8x256x16_S8x256x256_2_2_1_1_0_0.contr.Idx) :
    (dot_S8x256x16_S8x256x16_S8x256x256_2_2_1_1_0_0.rhsIdx i q 0).val = (i 0).val := by
  unfold DotDims.rhsIdx
  rw [dif_pos (show (0 : Fin S8x256x16.rank) ∈ dot_S8x256x16_S8x256x16_S8x256x256_2_2_1_1_0_0.rhsBatch by decide)]
  rfl
theorem rhs_qk_1 (i : S8x256x256.Idx) (q : dot_S8x256x16_S8x256x16_S8x256x256_2_2_1_1_0_0.contr.Idx) :
    (dot_S8x256x16_S8x256x16_S8x256x256_2_2_1_1_0_0.rhsIdx i q 1).val = (i 2).val := by
  unfold DotDims.rhsIdx
  rw [dif_neg (show ¬(1 : Fin S8x256x16.rank) ∈ dot_S8x256x16_S8x256x16_S8x256x256_2_2_1_1_0_0.rhsBatch by decide),
    dif_pos (show (1 : Fin S8x256x16.rank) ∈ dot_S8x256x16_S8x256x16_S8x256x256_2_2_1_1_0_0.rhsNonContracting by decide)]
  rfl
theorem rhs_qk_2 (i : S8x256x256.Idx) (q : dot_S8x256x16_S8x256x16_S8x256x256_2_2_1_1_0_0.contr.Idx) :
    (dot_S8x256x16_S8x256x16_S8x256x256_2_2_1_1_0_0.rhsIdx i q 2).val = (q ⟨0, by decide⟩).val :=
  dot_S8x256x16_S8x256x16_S8x256x256_2_2_1_1_0_0.rhsIdx_val_of_single rfl i q

/-- The product of a [8,256,16] block with a [8,256,16] block into zero, at (h, r, kk): the sum over the 16 shared
    coordinates of the left block's row r times the right block's row kk, within head h. -/
theorem qk_apply (a b : FVec Ideal S8x256x16 .bf16) (kk : Fin 256) :
    matmul (F := Ideal) dot_S8x256x16_S8x256x16_S8x256x256_2_2_1_1_0_0 none a b
        (constant S8x256x256 .f32 0x00000000#32) (ix3 h r kk)
      = ∑ d : Fin 16, a (ix3 h r d) * b (ix3 h kk d) := by
  refine (Ideal.matmul_constant_zero_apply _ none a b (ix3 h r kk)).trans ?_
  rw [← Equiv.sum_comp (contrEquiv1 dot_S8x256x16_S8x256x16_S8x256x256_2_2_1_1_0_0 16 rfl rfl).symm]
  refine Finset.sum_congr rfl fun k _ => ?_
  have hk := contrEquiv1_symm_val dot_S8x256x16_S8x256x16_S8x256x256_2_2_1_1_0_0 16 rfl rfl k
  have el : dot_S8x256x16_S8x256x16_S8x256x256_2_2_1_1_0_0.lhsIdx (ix3 h r kk)
      ((contrEquiv1 dot_S8x256x16_S8x256x16_S8x256x256_2_2_1_1_0_0 16 rfl rfl).symm k) = ix3 h r k :=
    funext fun c => Fin.ext (by
      match c with
      | ⟨0, _⟩ => exact lhs_qk_0 _ _
      | ⟨1, _⟩ => exact lhs_qk_1 _ _
      | ⟨2, _⟩ => exact (lhs_qk_2 _ _).trans hk)
  have er : dot_S8x256x16_S8x256x16_S8x256x256_2_2_1_1_0_0.rhsIdx (ix3 h r kk)
      ((contrEquiv1 dot_S8x256x16_S8x256x16_S8x256x256_2_2_1_1_0_0 16 rfl rfl).symm k) = ix3 h kk k :=
    funext fun c => Fin.ext (by
      match c with
      | ⟨0, _⟩ => exact rhs_qk_0 _ _
      | ⟨1, _⟩ => exact rhs_qk_1 _ _
      | ⟨2, _⟩ => exact (rhs_qk_2 _ _).trans hk)
  rw [el, er]

/-! ## The second batched product: the left operand's last axis against the right operand's middle axis, batched
    over the head -/

theorem lhs_pv_0 (i : S8x256x16.Idx) (q : dot_S8x256x256_S8x256x16_S8x256x16_2_1_1_2_0_0.contr.Idx) :
    (dot_S8x256x256_S8x256x16_S8x256x16_2_1_1_2_0_0.lhsIdx i q 0).val = (i 0).val := by
  unfold DotDims.lhsIdx
  rw [dif_pos (show (0 : Fin S8x256x256.rank) ∈ dot_S8x256x256_S8x256x16_S8x256x16_2_1_1_2_0_0.lhsBatch by decide)]
  rfl
theorem lhs_pv_1 (i : S8x256x16.Idx) (q : dot_S8x256x256_S8x256x16_S8x256x16_2_1_1_2_0_0.contr.Idx) :
    (dot_S8x256x256_S8x256x16_S8x256x16_2_1_1_2_0_0.lhsIdx i q 1).val = (i 1).val := by
  unfold DotDims.lhsIdx
  rw [dif_neg (show ¬(1 : Fin S8x256x256.rank) ∈ dot_S8x256x256_S8x256x16_S8x256x16_2_1_1_2_0_0.lhsBatch by decide),
    dif_pos (show (1 : Fin S8x256x256.rank) ∈ dot_S8x256x256_S8x256x16_S8x256x16_2_1_1_2_0_0.lhsNonContracting by decide)]
  rfl
theorem lhs_pv_2 (i : S8x256x16.Idx) (q : dot_S8x256x256_S8x256x16_S8x256x16_2_1_1_2_0_0.contr.Idx) :
    (dot_S8x256x256_S8x256x16_S8x256x16_2_1_1_2_0_0.lhsIdx i q 2).val = (q ⟨0, by decide⟩).val :=
  dot_S8x256x256_S8x256x16_S8x256x16_2_1_1_2_0_0.lhsIdx_val_of_single rfl i q
theorem rhs_pv_0 (i : S8x256x16.Idx) (q : dot_S8x256x256_S8x256x16_S8x256x16_2_1_1_2_0_0.contr.Idx) :
    (dot_S8x256x256_S8x256x16_S8x256x16_2_1_1_2_0_0.rhsIdx i q 0).val = (i 0).val := by
  unfold DotDims.rhsIdx
  rw [dif_pos (show (0 : Fin S8x256x16.rank) ∈ dot_S8x256x256_S8x256x16_S8x256x16_2_1_1_2_0_0.rhsBatch by decide)]
  rfl
theorem rhs_pv_1 (i : S8x256x16.Idx) (q : dot_S8x256x256_S8x256x16_S8x256x16_2_1_1_2_0_0.contr.Idx) :
    (dot_S8x256x256_S8x256x16_S8x256x16_2_1_1_2_0_0.rhsIdx i q 1).val = (q ⟨0, by decide⟩).val :=
  dot_S8x256x256_S8x256x16_S8x256x16_2_1_1_2_0_0.rhsIdx_val_of_single rfl i q
theorem rhs_pv_2 (i : S8x256x16.Idx) (q : dot_S8x256x256_S8x256x16_S8x256x16_2_1_1_2_0_0.contr.Idx) :
    (dot_S8x256x256_S8x256x16_S8x256x16_2_1_1_2_0_0.rhsIdx i q 2).val = (i 2).val := by
  unfold DotDims.rhsIdx
  rw [dif_neg (show ¬(2 : Fin S8x256x16.rank) ∈ dot_S8x256x256_S8x256x16_S8x256x16_2_1_1_2_0_0.rhsBatch by decide),
    dif_pos (show (2 : Fin S8x256x16.rank) ∈ dot_S8x256x256_S8x256x16_S8x256x16_2_1_1_2_0_0.rhsNonContracting by decide)]
  rfl

/-- The product of a [8,256,256] block with a [8,256,16] block into zero, at (h, r, d): the sum over the 256 keys of
    the left block's entry (r, kk) times the right block's entry (kk, d), within head h. -/
theorem pv_apply (p : FVec Ideal S8x256x256 .bf16) (v : FVec Ideal S8x256x16 .bf16) (d : Fin 16) :
    matmul (F := Ideal) dot_S8x256x256_S8x256x16_S8x256x16_2_1_1_2_0_0 none p v
        (constant S8x256x16 .f32 0x00000000#32) (ix3 h r d)
      = ∑ kk : Fin 256, p (ix3 h r kk) * v (ix3 h kk d) := by
  refine (Ideal.matmul_constant_zero_apply _ none p v (ix3 h r d)).trans ?_
  rw [← Equiv.sum_comp (contrEquiv1 dot_S8x256x256_S8x256x16_S8x256x16_2_1_1_2_0_0 256 rfl rfl).symm]
  refine Finset.sum_congr rfl fun k _ => ?_
  have hk := contrEquiv1_symm_val dot_S8x256x256_S8x256x16_S8x256x16_2_1_1_2_0_0 256 rfl rfl k
  have el : dot_S8x256x256_S8x256x16_S8x256x16_2_1_1_2_0_0.lhsIdx (ix3 h r d)
      ((contrEquiv1 dot_S8x256x256_S8x256x16_S8x256x16_2_1_1_2_0_0 256 rfl rfl).symm k) = ix3 h r k :=
    funext fun c => Fin.ext (by
      match c with
      | ⟨0, _⟩ => exact lhs_pv_0 _ _
      | ⟨1, _⟩ => exact lhs_pv_1 _ _
      | ⟨2, _⟩ => exact (lhs_pv_2 _ _).trans hk)
  have er : dot_S8x256x256_S8x256x16_S8x256x16_2_1_1_2_0_0.rhsIdx (ix3 h r d)
      ((contrEquiv1 dot_S8x256x256_S8x256x16_S8x256x16_2_1_1_2_0_0 256 rfl rfl).symm k) = ix3 h k d :=
    funext fun c => Fin.ext (by
      match c with
      | ⟨0, _⟩ => exact rhs_pv_0 _ _
      | ⟨1, _⟩ => exact (rhs_pv_1 _ _).trans hk
      | ⟨2, _⟩ => exact rhs_pv_2 _ _)
  rw [el, er]

/-! ## The payloads between the stored ones -/
/-- The copy of a [8,256,1] block is the block. -/
theorem pay3_eq (v : FVec Ideal S8x256x1 .f32) : k0_pay3 (F := Ideal) v = v := by
  unfold k0_pay3
  exact shapeCast_self v _

/-- The copy of a [8,256,16] block is the block. -/
theorem pay8_eq (v : Vec Ideal S8x256x16 .bf16) : k0_pay8 (F := Ideal) v = v := by
  unfold k0_pay8
  exact shapeCast_self v _

/-- The running maximum before the copy: the carried maximum against the row maximum of the scores. -/
theorem pay10_apply :
    k0_pay10 (F := Ideal) x0 x1 x3 x4 xs0 (ix3 h r (0 : Fin 1))
      = max (xs0 (ix3 h r (0 : Fin 1)))
          ((Finset.univ : Finset (Fin 256)).fold max ⊥ (fun kk => k0_pay9 (F := Ideal) x0 x1 x3 x4 (ix3 h r kk))) := by
  unfold k0_pay10
  generalize k0_pay9 (F := Ideal) x0 x1 x3 x4 = S
  rw [maximumf_apply, cast_col_apply h r]
  exact congrArg (max (xs0 (ix3 h r (0 : Fin 1)))) (lane_max_apply h r S _ _ _)

/-- The rescaling factor of a row: e to the carried maximum minus the new one. -/
theorem pay11_apply :
    k0_pay11 (F := Ideal) x0 x1 x3 x4 xs0 (ix3 h r (0 : Fin 1))
      = Ideal.exp (xs0 (ix3 h r (0 : Fin 1)) - k0_pay3 (F := Ideal) (k0_pay10 x0 x1 x3 x4 xs0) (ix3 h r (0 : Fin 1))) := by
  rw [pay3_eq]
  unfold k0_pay11
  rfl

/-- The weight of key kk in a row: e to the score minus the new maximum of the row. -/
theorem pay12_apply (kk : Fin 256) :
    k0_pay12 (F := Ideal) x0 x1 x3 x4 xs0 (ix3 h r kk)
      = Ideal.exp (k0_pay9 (F := Ideal) x0 x1 x3 x4 (ix3 h r kk)
          - k0_pay3 (F := Ideal) (k0_pay10 x0 x1 x3 x4 xs0) (ix3 h r (0 : Fin 1))) := by
  rw [pay3_eq]
  unfold k0_pay12
  show Ideal.exp (k0_pay9 (F := Ideal) x0 x1 x3 x4 (ix3 h r kk)
    - broadcastTo S8x256x256 (k0_pay10 (F := Ideal) x0 x1 x3 x4 xs0) _ (ix3 h r kk)) = _
  rw [bcast_col256_apply h r]

/-- The rescaled carried normaliser of a row. -/
theorem pay13_apply :
    k0_pay13 (F := Ideal) x0 x1 x3 x4 xs0 xs1 (ix3 h r (0 : Fin 1))
      = Ideal.exp (xs0 (ix3 h r (0 : Fin 1)) - k0_pay3 (F := Ideal) (k0_pay10 x0 x1 x3 x4 xs0) (ix3 h r (0 : Fin 1)))
          * xs1 (ix3 h r (0 : Fin 1)) := by
  unfold k0_pay13
  rw [mulf_apply, pay11_apply]

/-- The normaliser's update over any weights P and any rescaled carry c: c(h, r) plus the lane sum of P. -/
theorem pay1_apply (P : FVec Ideal S8x256x256 .f32) (c : FVec Ideal S8x256x1 .f32) :
    k0_pay1 (F := Ideal) P c (ix3 h r (0 : Fin 1)) = c (ix3 h r (0 : Fin 1)) + ∑ kk : Fin 256, P (ix3 h r kk) := by
  unfold k0_pay1
  simp only [shapeCast_self]
  rw [addf_apply, cast_col_apply h r]
  exact congrArg (c (ix3 h r (0 : Fin 1)) + ·) (lane_sum_apply h r P _ _ _)

/-- The weighted sum's update over any value block V, rescaling column a, weights P and carry A: a(h, r) · A(h, r, d)
    plus the sum over keys of P(h, r, kk) · V(h, kk, d). -/
theorem pay2_apply (V : FVec Ideal S8x256x16 .bf16) (a : FVec Ideal S8x256x1 .f32) (P : FVec Ideal S8x256x256 .f32)
    (A : Vec Ideal S8x256x16 .f32) (d : Fin 16) :
    k0_pay2 (F := Ideal) V a P A (ix3 h r d)
      = a (ix3 h r (0 : Fin 1)) * A (ix3 h r d) + ∑ kk : Fin 256, P (ix3 h r kk) * V (ix3 h kk d) := by
  unfold k0_pay2
  simp only [shapeCast_self]
  rw [addf_apply, mulf_apply, bcast_col16_apply h r, pv_apply h r]
  rfl

/-! ## The stored payloads -/

/-- The scores of a block. -/
theorem scores_apply (kk : Fin 256) :
    k0_pay9 (F := Ideal) x0 x1 x3 x4 (ix3 h r kk)
      = ((∑ d : Fin 16, x0 (ix3 h r d) * x1 (ix3 h kk d)) * Ideal.ofBits .f32 0x3E800000#32 + x3 (ix3 h r kk))
          + x4 (ix3 (0 : Fin 1) (0 : Fin 1) kk) := by
  unfold k0_pay9
  simp only [shapeCast_self]
  rw [addf_apply, addf_apply, mulf_apply, broadcast_apply, qk_apply h r, bcast_mask_apply h r]
  rfl

/-- The new running maximum of a row. -/
theorem newmax_apply :
    k0_pay3 (F := Ideal) (k0_pay10 x0 x1 x3 x4 xs0) (ix3 h r (0 : Fin 1))
      = max (xs0 (ix3 h r (0 : Fin 1)))
          ((Finset.univ : Finset (Fin 256)).fold max ⊥ (fun kk => k0_pay9 (F := Ideal) x0 x1 x3 x4 (ix3 h r kk))) := by
  rw [pay3_eq]
  exact pay10_apply x0 x1 x3 x4 xs0 h r

/-- The new running normaliser of a row. -/
theorem newsum_apply :
    k0_pay1 (F := Ideal) (k0_pay12 x0 x1 x3 x4 xs0) (k0_pay13 x0 x1 x3 x4 xs0 xs1) (ix3 h r (0 : Fin 1))
      = Ideal.exp (xs0 (ix3 h r (0 : Fin 1)) - k0_pay3 (F := Ideal) (k0_pay10 x0 x1 x3 x4 xs0) (ix3 h r (0 : Fin 1)))
            * xs1 (ix3 h r (0 : Fin 1))
          + ∑ kk : Fin 256, Ideal.exp (k0_pay9 (F := Ideal) x0 x1 x3 x4 (ix3 h r kk)
              - k0_pay3 (F := Ideal) (k0_pay10 x0 x1 x3 x4 xs0) (ix3 h r (0 : Fin 1))) := by
  rw [pay1_apply, pay13_apply]
  exact congrArg _ (Finset.sum_congr rfl fun kk _ => pay12_apply x0 x1 x3 x4 xs0 h r kk)

/-- The new running weighted sum of a row, at coordinate d. -/
theorem newacc_apply (d : Fin 16) :
    k0_pay2 (F := Ideal) (k0_pay8 x2) (k0_pay11 x0 x1 x3 x4 xs0) (k0_pay12 x0 x1 x3 x4 xs0) xs2 (ix3 h r d)
      = Ideal.exp (xs0 (ix3 h r (0 : Fin 1)) - k0_pay3 (F := Ideal) (k0_pay10 x0 x1 x3 x4 xs0) (ix3 h r (0 : Fin 1)))
            * xs2 (ix3 h r d)
          + ∑ kk : Fin 256, Ideal.exp (k0_pay9 (F := Ideal) x0 x1 x3 x4 (ix3 h r kk)
              - k0_pay3 (F := Ideal) (k0_pay10 x0 x1 x3 x4 xs0) (ix3 h r (0 : Fin 1))) * x2 (ix3 h kk d) := by
  rw [pay2_apply, pay8_eq, pay11_apply]
  exact congrArg _ (Finset.sum_congr rfl fun kk _ =>
    congrArg (· * x2 (ix3 h kk d)) (pay12_apply x0 x1 x3 x4 xs0 h r kk))

/-- The normalised output of a row, at coordinate d. -/
theorem out_apply (A : Vec Ideal S8x256x16 .f32) (L : Vec Ideal S8x256x1 .f32) (d : Fin 16) :
    k0_pay4 (F := Ideal) A L (ix3 h r d) = Ideal.div (A (ix3 h r d)) (L (ix3 h r (0 : Fin 1))) := by
  unfold k0_pay4
  exact congrArg (Ideal.div (A (ix3 h r d))) (bcast_col16_apply h r L _ d)

/-- The reset values: −∞ for the maximum, 0 for the normaliser and the weighted sum. -/
theorem reset_max_apply : k0_pay5 (F := Ideal) (ix3 h r (0 : Fin 1)) = ⊥ := by
  unfold k0_pay5
  simp only [shapeCast_self]
  exact negInfWord_eq_bot
theorem reset_sum_apply : k0_pay6 (F := Ideal) (ix3 h r (0 : Fin 1)) = 0 := by
  unfold k0_pay6
  simp only [shapeCast_self]
  exact Ideal.ofBits_zero_f32
theorem reset_acc_apply (d : Fin 16) : k0_pay7 (F := Ideal) (ix3 h r d) = 0 := by
  unfold k0_pay7
  simp only [shapeCast_self]
  exact Ideal.ofBits_zero_f32

end Cert.Attn.Kern

end
-- ==== Proof.KernelGrid.lean ====
/-
  The carried buffers after every grid point, row by row, are the states of the one-pass softmax.

  Point t = 8·i + j works on query block i and key block j.  For head h, row r of the block and coordinate d, the
  triple (m(h, r), l(h, r), acc(h, r, d)) left after point t is the state after key blocks 0 … j of the one-pass
  softmax of row n = 256·i + r: over the scores s(h, n, ·) and the value column v(h, ·, d).  At j = 0 the body resets
  the buffers and takes the first step; at j > 0 it takes one more step from what point t − 1 left (same query block).
  At j = 7 the output block's entry is acc / l of that final state.
-/
import proofs.«414598_j56530359550887_3_alg».proof.Proof.KernelBlocks
import proofs.«414598_j56530359550887_3_alg».proof.Proof.KernelPieces
import proofs.«414598_j56530359550887_3_alg».proof.Proof.KernelRows
import proofs.«414598_j56530359550887_3_alg».proof.Proof.AttnSpec

set_option maxRecDepth 16384

noncomputable section

namespace Cert.Attn.Kern

open Idealize.ShloMosaic Idealize.ShloMosaic.TcCoe Idealize.ShloMosaic.ValueIdx Idealize.SL.Sem
open Cert.KernelIdeal Cert.KernelIdeal.Gen

/-- One row's update of (m, l, acc) is one step of the one-pass softmax on that row's scores and value column. -/
theorem row_step (x0 x1 x2 : Vec Ideal S8x256x16 .bf16) (x3 : Vec Ideal S8x256x256 .f32) (x4 : Vec Ideal S1x1x256 .f32)
    (xs0 xs1 : Vec Ideal S8x256x1 .f32) (xs2 : Vec Ideal S8x256x16 .f32) (h : Fin 8) (r : Fin 256) (d : Fin 16) :
    ((k0_pay3 (F := Ideal) (k0_pay10 x0 x1 x3 x4 xs0) (ix3 h r (0 : Fin 1)),
      k0_pay1 (F := Ideal) (k0_pay12 x0 x1 x3 x4 xs0) (k0_pay13 x0 x1 x3 x4 xs0 xs1) (ix3 h r (0 : Fin 1)),
      k0_pay2 (F := Ideal) (k0_pay8 x2) (k0_pay11 x0 x1 x3 x4 xs0) (k0_pay12 x0 x1 x3 x4 xs0) xs2 (ix3 h r d)) : EReal × EReal × EReal)
      = flashStep (fun kk => k0_pay9 (F := Ideal) x0 x1 x3 x4 (ix3 h r kk)) (fun kk => x2 (ix3 h kk d))
          (xs0 (ix3 h r (0 : Fin 1)), xs1 (ix3 h r (0 : Fin 1)), xs2 (ix3 h r d)) := by
  rw [newsum_apply, newacc_apply, newmax_apply]
  rfl

variable (m : (ℓ : Loc nD τ sig) → Buf (Elt Ideal) ℓ)

/-- The score the kernel forms: the scaled inner product plus the bias plus the additive mask. -/
def kscore (c : Dev nD) (h : Fin 8) (n kk : Fin 2048) : EReal :=
  ((∑ d : Fin 16, qArr m c (ix3 h n d) * kArr m c (ix3 h kk d)) * Ideal.ofBits .f32 0x3E800000#32 + bArr m c (ix3 h n kk))
    + mArr m c (ix3 (0 : Fin 1) (0 : Fin 1) kk)

/-- The scores of point t's blocks are the scores of its rows against its keys. -/
theorem scores_blk (c : Dev nD) (t : Fin cfg0.N) (h : Fin 8) (r kk : Fin 256) :
    k0_pay9 (F := Ideal) (qBlk m c t) (kBlk m c t) (bBlk m c t) (mBlk m c t) (ix3 h r kk)
      = kscore m c h (rowOf t r) (keyOf t kk) := by
  rw [scores_apply]
  unfold kscore
  simp only [qBlk_apply, kBlk_apply, bBlk_apply, mBlk_apply]

/-- Block j = t % 8 of a function of the key, at kk, is the function at key 256·j + kk. -/
theorem blk_key (f : Fin 2048 → EReal) (t : Fin cfg0.N) (kk : Fin 256) : blk f (t.val % 8) kk = f (keyOf t kk) := by
  unfold blk keyOf
  refine congrArg f (Fin.ext ?_)
  show (256 * (t.val % 8) + kk.val) % 2048 = 256 * (t.val % 8) + kk.val
  have := kk.isLt
  omega

/-- The step the body takes at point t on row r, from a state st, is the one-pass softmax's step on key block t % 8. -/
theorem step_blk (c : Dev nD) (t : Fin cfg0.N) (h : Fin 8) (r : Fin 256) (d : Fin 16) (st : EReal × EReal × EReal) :
    flashStep (fun kk => k0_pay9 (F := Ideal) (qBlk m c t) (kBlk m c t) (bBlk m c t) (mBlk m c t) (ix3 h r kk))
        (fun kk => vBlk m c t (ix3 h kk d)) st
      = flashStep (blk (kscore m c h (rowOf t r)) (t.val % 8)) (blk (fun kk => vArr m c (ix3 h kk d)) (t.val % 8)) st := by
  have e1 : (fun kk => k0_pay9 (F := Ideal) (qBlk m c t) (kBlk m c t) (bBlk m c t) (mBlk m c t) (ix3 h r kk))
      = blk (kscore m c h (rowOf t r)) (t.val % 8) := funext fun kk => (scores_blk m c t h r kk).trans (blk_key _ t kk).symm
  have e2 : (fun kk => vBlk m c t (ix3 h kk d)) = blk (fun kk => vArr m c (ix3 h kk d)) (t.val % 8) :=
    funext fun kk => (vBlk_apply m c t h kk d).trans (blk_key (fun kk => vArr m c (ix3 h kk d)) t kk).symm
  rw [e1, e2]

/-- The triple a point leaves on a row. -/
def rowState (c : Dev nD) (n : ℕ) (hn : n < cfg0.N) (h : Fin 8) (r : Fin 256) (d : Fin 16) : EReal × EReal × EReal :=
  ((outsAt0 m c n hn).2.1 (ix3 h r (0 : Fin 1)), (outsAt0 m c n hn).2.2.1 (ix3 h r (0 : Fin 1)), (outsAt0 m c n hn).2.2.2 (ix3 h r d))

/-- At the first key block: the first step from the empty state. -/
theorem state_first (c : Dev nD) (t : Fin cfg0.N) (h0 : t.val % 8 = 0) (h : Fin 8) (r : Fin 256) (d : Fin 16) :
    rowState m c t.val t.isLt h r d
      = flashState (kscore m c h (rowOf t r)) (fun kk => vArr m c (ix3 h kk d)) (t.val % 8) := by
  have h1 : ¬t.val % 8 = 7 := by omega
  have hc0 : cond0_0 (grid0.coords t) := (hcond0_0 t).mpr h0
  have hc1 : ¬cond0_1 (grid0.coords t) := fun hh => h1 ((hcond0_1 t).mp hh)
  have e1 : (outsAt0 m c t.val t.isLt).2.1 (ix3 h r (0 : Fin 1))
      = k0_pay3 (F := Ideal) (k0_pay10 (qBlk m c t) (kBlk m c t) (bBlk m c t) (mBlk m c t) (k0_pay5 (F := Ideal))) (ix3 h r (0 : Fin 1)) := by
    rw [outsAt0_A m c t h0 h1]; dsimp only
    exact congrFun (first_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t) hc0 hc1) (ix3 h r (0 : Fin 1))
  have e2 : (outsAt0 m c t.val t.isLt).2.2.1 (ix3 h r (0 : Fin 1))
      = k0_pay1 (F := Ideal) (k0_pay12 (qBlk m c t) (kBlk m c t) (bBlk m c t) (mBlk m c t) (k0_pay5 (F := Ideal)))
          (k0_pay13 (qBlk m c t) (kBlk m c t) (bBlk m c t) (mBlk m c t) (k0_pay5 (F := Ideal)) (k0_pay6 (F := Ideal))) (ix3 h r (0 : Fin 1)) := by
    rw [outsAt0_A m c t h0 h1]; dsimp only
    exact congrFun (first_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t) hc0 hc1) (ix3 h r (0 : Fin 1))
  have e3 : (outsAt0 m c t.val t.isLt).2.2.2 (ix3 h r d)
      = k0_pay2 (F := Ideal) (k0_pay8 (vBlk m c t)) (k0_pay11 (qBlk m c t) (kBlk m c t) (bBlk m c t) (mBlk m c t) (k0_pay5 (F := Ideal)))
          (k0_pay12 (qBlk m c t) (kBlk m c t) (bBlk m c t) (mBlk m c t) (k0_pay5 (F := Ideal))) (k0_pay7 (F := Ideal)) (ix3 h r d) := by
    rw [outsAt0_A m c t h0 h1]; dsimp only
    exact congrFun (first_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t) hc0 hc1) (ix3 h r d)
  unfold rowState
  rw [e1, e2, e3, row_step, reset_max_apply, reset_sum_apply, reset_acc_apply, step_blk, h0]
  rfl

/-- At a later key block: one more step from what the point before left on the same row. -/
theorem state_next (c : Dev nD) (t : Fin cfg0.N) (h0 : ¬t.val % 8 = 0) (h : Fin 8) (r : Fin 256) (d : Fin 16)
    (ih : rowState m c (t.val - 1) (Nat.lt_of_le_of_lt (Nat.sub_le _ _) t.isLt) h r d
      = flashState (kscore m c h (rowOf t r)) (fun kk => vArr m c (ix3 h kk d)) ((t.val - 1) % 8)) :
    rowState m c t.val t.isLt h r d
      = flashState (kscore m c h (rowOf t r)) (fun kk => vArr m c (ix3 h kk d)) (t.val % 8) := by
  have hc0 : ¬cond0_0 (grid0.coords t) := fun hh => h0 ((hcond0_0 t).mp hh)
  have key : rowState m c t.val t.isLt h r d
      = flashStep (fun kk => k0_pay9 (F := Ideal) (qBlk m c t) (kBlk m c t) (bBlk m c t) (mBlk m c t) (ix3 h r kk))
          (fun kk => vBlk m c t (ix3 h kk d))
          (rowState m c (t.val - 1) (Nat.lt_of_le_of_lt (Nat.sub_le _ _) t.isLt) h r d) := by
    unfold rowState
    rw [← row_step]
    by_cases h1 : t.val % 8 = 7
    · have hc1 : cond0_1 (grid0.coords t) := (hcond0_1 t).mpr h1
      have e1 := congrFun (last_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2 hc0 hc1) (ix3 h r (0 : Fin 1))
      have e2 := congrFun (last_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2 hc0 hc1) (ix3 h r (0 : Fin 1))
      have e3 := congrFun (last_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2 hc0 hc1) (ix3 h r d)
      rw [outsAt0_C m c t h0 h1]; dsimp only
      rw [e1, e2, e3]
    · have hc1 : ¬cond0_1 (grid0.coords t) := fun hh => h1 ((hcond0_1 t).mp hh)
      have e1 := congrFun (mid_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2 hc0 hc1) (ix3 h r (0 : Fin 1))
      have e2 := congrFun (mid_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2 hc0 hc1) (ix3 h r (0 : Fin 1))
      have e3 := congrFun (mid_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2 hc0 hc1) (ix3 h r d)
      rw [outsAt0_B m c t h0 h1]; dsimp only
      rw [e1, e2, e3]
  have hj : t.val % 8 = (t.val - 1) % 8 + 1 := by omega
  rw [key, ih, step_blk, hj]
  rfl

/-- After every point, on every row: the state of the one-pass softmax after that point's key block. -/
theorem state_at (c : Dev nD) (n : ℕ) : ∀ (hn : n < cfg0.N) (h : Fin 8) (r : Fin 256) (d : Fin 16),
    rowState m c n hn h r d
      = flashState (kscore m c h (rowOf ⟨n, hn⟩ r)) (fun kk => vArr m c (ix3 h kk d)) (n % 8) := by
  induction n with
  | zero => intro hn h r d; exact state_first m c ⟨0, hn⟩ (Nat.zero_mod 8) h r d
  | succ k ih =>
    intro hn h r d
    by_cases h0 : (k + 1) % 8 = 0
    · exact state_first m c ⟨k + 1, hn⟩ h0 h r d
    · refine state_next m c ⟨k + 1, hn⟩ h0 h r d ?_
      have hr : rowOf ⟨k + 1, hn⟩ r = rowOf ⟨k, Nat.lt_of_succ_lt hn⟩ r := by
        unfold rowOf; refine Fin.ext ?_
        show 256 * ((k + 1) / 8) + r.val = 256 * (k / 8) + r.val
        omega
      rw [hr]
      exact ih (Nat.lt_of_succ_lt hn) h r d

/-- At the last key block the output block's entry is acc / l of the row's final state. -/
theorem out_at (c : Dev nD) (t : Fin cfg0.N) (h1 : t.val % 8 = 7) (h : Fin 8) (r : Fin 256) (d : Fin 16) :
    (outsAt0 m c t.val t.isLt).1 (ix3 h r d)
      = Ideal.div (flashState (kscore m c h (rowOf t r)) (fun kk => vArr m c (ix3 h kk d)) 7).2.2
          (flashState (kscore m c h (rowOf t r)) (fun kk => vArr m c (ix3 h kk d)) 7).2.1 := by
  have h0 : ¬t.val % 8 = 0 := by omega
  have hc0 : ¬cond0_0 (grid0.coords t) := fun hh => h0 ((hcond0_0 t).mp hh)
  have hc1 : cond0_1 (grid0.coords t) := (hcond0_1 t).mpr h1
  have hs := state_at m c t.val t.isLt h r d
  rw [h1] at hs
  rw [← hs]
  unfold rowState
  have eo := congrFun (last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 hc0 hc1) (ix3 h r d)
  have e2 := congrFun (last_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 hc0 hc1) (ix3 h r (0 : Fin 1))
  have e3 := congrFun (last_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (qBlk m c t) (kBlk m c t) (vBlk m c t) (bBlk m c t) (mBlk m c t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 hc0 hc1) (ix3 h r d)
  rw [outsAt0_C m c t h0 h1]; dsimp only
  rw [eo, e2, e3, out_apply]

end Cert.Attn.Kern

end
-- ==== Proof.HostSame.lean ====
/-
  The host operations around the kernel are the reference's own.

  Before the region the kernel's program projects the activations into queries, keys and values, moves the head axis
  to the front and changes the float format (the identity at the ideal values): the three arrays the region reads are
  the reference's projected queries, keys and values.  The bias with its head axis moved to the front is the
  reference's.  The mask array is 0 on an unmasked key and −∞ on a masked one.  After the region both programs move
  the head axis back, flatten the heads, multiply by the output weight and add the output bias: one function `tailR`.
-/
import proofs.«414598_j56530359550887_3_alg».proof.Proof.Gen.KernelIdeal.Frame
import proofs.«414598_j56530359550887_3_alg».proof.Proof.Gen.ReferenceIdeal.Read
import Idealize.ShloMosaic.Lib.StableHlo.Run

noncomputable section

namespace Cert.Attn

open Idealize.ShloMosaic Idealize.ShloMosaic.TcCoe Idealize.ShloMosaic.ValueIdx Idealize.SL.Sem Idealize.ShloMosaic.StableHlo

/-- Heads back behind the rows, flattened, times the transposed output weight, plus the output bias. -/
def tailR (o : FVec Ideal Cert.ReferenceIdeal.S8x2048x16 .f32) (w : FVec Ideal Cert.ReferenceIdeal.S128x128 .f32)
    (b : FVec Ideal Cert.ReferenceIdeal.S128 .f32) : FVec Ideal Cert.ReferenceIdeal.S2048x128 .f32 :=
  addf (Host.dotGeneral Cert.ReferenceIdeal.dot_S2048x128_S128x128_S2048x128_1_0_0_1_n_n none
      (shapeCast Cert.ReferenceIdeal.S2048x128
        (transpose Cert.ReferenceIdeal.S2048x8x16 [1, 0, 2] o Cert.ReferenceIdeal.Facts₀.transposes_S8x2048x16_S2048x8x16_1_0_2)
        Cert.ReferenceIdeal.Facts₀.shapeCasts_S2048x8x16_S2048x128)
      (transpose Cert.ReferenceIdeal.S128x128 [1, 0] w Cert.ReferenceIdeal.Facts₀.transposes_S128x128_S128x128_1_0))
    (broadcastInDim Cert.ReferenceIdeal.S2048x128 ![0, 1] Cert.ReferenceIdeal.Facts₀.bcast_S1x128_S2048x128_0_1
      (broadcastInDim Cert.ReferenceIdeal.S1x128 ![1] Cert.ReferenceIdeal.Facts₀.bcast_S128_S1x128_1 b))

/-- The reference's result is the tail of its attended values. -/
theorem ref_result_eq (x0 : FVec Ideal Cert.ReferenceIdeal.S2048x128 .f32) (x1 : FVec Ideal Cert.ReferenceIdeal.S2048x2048x8 .f32)
    (x2 : IVec Cert.ReferenceIdeal.S2048 1) (x3 : FVec Ideal Cert.ReferenceIdeal.S128x128 .f32) (x4 : FVec Ideal Cert.ReferenceIdeal.S128 .f32)
    (x5 : FVec Ideal Cert.ReferenceIdeal.S128x128 .f32) (x6 : FVec Ideal Cert.ReferenceIdeal.S128 .f32)
    (x7 : FVec Ideal Cert.ReferenceIdeal.S128x128 .f32) (x8 : FVec Ideal Cert.ReferenceIdeal.S128 .f32)
    (x9 : FVec Ideal Cert.ReferenceIdeal.S128x128 .f32) (x10 : FVec Ideal Cert.ReferenceIdeal.S128 .f32) :
    Cert.ReferenceIdeal.Read.val_main_v46 (F := Ideal) x0 x1 x2 x3 x4 x5 x6 x7 x8 x9 x10
      = tailR (Cert.ReferenceIdeal.Read.val_main_v39 (F := Ideal) x0 x1 x2 x3 x4 x5 x6 x7 x8) x9 x10 := rfl

section Kernel

open Cert.KernelIdeal Cert.KernelIdeal.Gen

variable (m : (ℓ : Loc nD τ sig) → Buf (Elt Ideal) ℓ)

/-- The additive mask: 0 where the key is kept, −∞ where it is masked, as a [1, 1, 2048] array. -/
def maskAdd (x2 : IVec S2048 1) : FVec Ideal S1x1x2048 .f32 :=
  shapeCast S1x1x2048 (id (select x2 (broadcastInDim S2048 ![] Facts₀.bcast_S_S2048 (constant S_ .f32 0xFF800000#32))
    (broadcastInDim S2048 ![] Facts₀.bcast_S_S2048 (constant S_ .f32 0x00000000#32)))) Facts₀.shapeCasts_S2048_S1x1x2048

/-- −∞'s word denotes −∞. -/
theorem ofBits_neg_inf : Ideal.ofBits .f32 0xFF800000#32 = ⊥ := by simp [Ideal.ofBits, Ideal.ieee]

/-- The additive mask at a key: −∞ on a masked key, 0 on a kept one. -/
theorem maskAdd_apply (x2 : IVec S2048 1) (kk : Fin 2048) :
    maskAdd x2 (ix3 (0 : Fin 1) (0 : Fin 1) kk) = if x2 (ix1 kk) = 1#1 then (⊥ : EReal) else 0 := by
  unfold maskAdd
  refine (shapeCast_apply _ _ (ix3 (0 : Fin 1) (0 : Fin 1) kk) (ix1 kk) ?_).trans ?_
  · rw [Shape.rowMajor_val_one, Shape.rowMajor_val_three]
    show kk.val = ((0 : Fin 1).val * 1 + (0 : Fin 1).val) * 2048 + kk.val
    simp
  · show Scalar.select (x2 (ix1 kk)) (Ideal.ofBits .f32 0xFF800000#32) (Ideal.ofBits .f32 0x00000000#32) = _
    unfold Scalar.select
    rw [ofBits_neg_inf, Ideal.ofBits_zero_f32]
    rfl

/-- The region's query array is the reference's projected queries. -/
theorem V_q (c : Dev nD) : (V m c main_v19 : S8x2048x16.Idx → EReal)
    = Cert.ReferenceIdeal.Read.val_main_v6 (F := Ideal) (m ((c : Thread nD τ).loc main_arg0)) (m ((c : Thread nD τ).loc main_arg3)) (m ((c : Thread nD τ).loc main_arg4)) := by
  dsimp only [V, V0]
  simp only [hostOps0, hostOps0_1, hostOps0_2, List.flatten_cons, List.flatten_nil, List.append_nil, List.cons_append, List.nil_append]
  after_results
  rfl

/-- The region's key array is the reference's projected keys. -/
theorem V_k (c : Dev nD) : (V m c main_v21 : S8x2048x16.Idx → EReal)
    = Cert.ReferenceIdeal.Read.val_main_v13 (F := Ideal) (m ((c : Thread nD τ).loc main_arg0)) (m ((c : Thread nD τ).loc main_arg5)) (m ((c : Thread nD τ).loc main_arg6)) := by
  dsimp only [V, V0]
  simp only [hostOps0, hostOps0_1, hostOps0_2, List.flatten_cons, List.flatten_nil, List.append_nil, List.cons_append, List.nil_append]
  after_results
  rfl

/-- The region's value array is the reference's projected values. -/
theorem V_v (c : Dev nD) : (V m c main_v23 : S8x2048x16.Idx → EReal)
    = Cert.ReferenceIdeal.Read.val_main_v20 (F := Ideal) (m ((c : Thread nD τ).loc main_arg0)) (m ((c : Thread nD τ).loc main_arg7)) (m ((c : Thread nD τ).loc main_arg8)) := by
  dsimp only [V, V0]
  simp only [hostOps0, hostOps0_1, hostOps0_2, List.flatten_cons, List.flatten_nil, List.append_nil, List.cons_append, List.nil_append]
  after_results
  rfl

/-- The region's bias array is the reference's bias with the head axis in front. -/
theorem V_b (c : Dev nD) : (V m c main_v24 : S8x2048x2048.Idx → EReal)
    = Cert.ReferenceIdeal.Read.val_main_v24 (F := Ideal) (m ((c : Thread nD τ).loc main_arg1)) := by
  dsimp only [V, V0]
  simp only [hostOps0, hostOps0_1, hostOps0_2, List.flatten_cons, List.flatten_nil, List.append_nil, List.cons_append, List.nil_append]
  after_results
  rfl

/-- The region's mask array is the additive mask of the key-padding mask. -/
theorem V_mask (c : Dev nD) : (V m c main_v27 : S1x1x2048.Idx → EReal) = maskAdd (m ((c : Thread nD τ).loc main_arg2)) := by
  dsimp only [V, V0]
  simp only [hostOps0, hostOps0_1, hostOps0_2, List.flatten_cons, List.flatten_nil, List.append_nil, List.cons_append, List.nil_append]
  after_results
  rfl

/-- After the region: the program's result is the tail of the region's output array. -/
theorem kernel_tail (c : Dev nD) :
    (Pipeline.afterTail₀ cfgs (dats m) 0 (V0 m) [hostOps1] c main_v35 : S2048x128.Idx → EReal)
      = tailR ((dats m 0 c).arrAt 5 cfg0.N) (m ((c : Thread nD τ).loc main_arg9)) (m ((c : Thread nD τ).loc main_arg10)) := by
  unfold Pipeline.afterTail₀
  show StableHlo.after hostOps1 _ (Proc.devRef .tc main_v35) = _
  after_results
  have e5 : Pipeline.withArrays (cfgs 0).spec c (V0 m c) (fun w => (dats m 0 c).arrAt w (cfgs 0).N) (Proc.devRef .tc main_v28)
      = (dats m 0 c).arrAt 5 (cfgs 0).N :=
    Pipeline.withArrays_arr (cfgs 0).spec launch0.win.arr_inj c _ _ 5
  have e9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  have e10 : Pipeline.withArrays (cfgs 0).spec c (V0 m c) (fun w => (dats m 0 c).arrAt w (cfgs 0).N) (Proc.devRef .tc main_arg10)
      = m ((c : Thread nD τ).loc main_arg10) :=
    (Pipeline.withArrays_of_ne _ c (V0 m c) _ main_arg10 (by exact (by decide : ∀ w, Pipeline.arrRef spec0 w ≠ main_arg10))).trans (V_main_arg10 m c)
  rw [e5, e9, e10]
  rfl

end Kernel

end Cert.Attn

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.AttnMath.lean ====
/-
  The one-pass (blockwise, rescaled) softmax of a row equals the two-pass softmax taken against any real point.

  Write Sₖ for the scores of a row (each either a real or −∞, at least one real) and vₖ for one column of the
  values (reals).  After every block the state (m, l, acc) satisfies: either no key so far is unmasked and the state
  is (−∞, 0, 0), or m = μ is real and l = Σ wₖ(μ), acc = Σ wₖ(μ) · vₖ over the keys so far, with wₖ(μ) = e^(σₖ − μ)
  on an unmasked key and 0 on a masked one.  The step keeps this because e^(μ − μ') · e^(σ − μ) = e^(σ − μ').
  At the end l > 0, and acc / l = Σ wₖ(μ) vₖ / Σ wₖ(μ) does not depend on μ: e^(σ − μ) = e^(σ − M) · e^(M − μ).
-/
import proofs.«414598_j56530359550887_3_alg».proof.Proof.AttnSpec
import proofs.«414598_j56530359550887_3_alg».proof.Proof.LibPlainMatmul

noncomputable section

namespace Cert.Attn

open Idealize.ShloMosaic Idealize.ShloMosaic.ValueIdx

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (h1 : x ≠ ⊤) (h2 : x ≠ ⊥) : IsReal x :=
  ⟨x.toReal, (EReal.coe_toReal h1 h2).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The unmasked score, a sum of products of reals times a real plus a real, is real. -/
private theorem rawScore_real {c : EReal} {q k : SHND.Idx → EReal} {b : SHNN.Idx → EReal}
    (hc : IsReal c) (hq : ∀ i, IsReal (q i)) (hk : ∀ i, IsReal (k i)) (hb : ∀ i, IsReal (b i))
    (h : Fin 8) (n kk : Fin 2048) :
    IsReal ((∑ d : Fin 16, q (ix3 h n d) * k (ix3 h kk d)) * c + b (ix3 h n kk)) :=
  ((isReal_sum _ _ fun d _ => (hq _).mul (hk _)).mul hc).add (hb _)

/-- A score is never +∞ when its ingredients are real. -/
theorem score_ne_top {c : EReal} {q k : SHND.Idx → EReal} {b : SHNN.Idx → EReal} (msk : Fin 2048 → BitVec 1)
    (hc : IsReal c) (hq : ∀ i, IsReal (q i)) (hk : ∀ i, IsReal (k i)) (hb : ∀ i, IsReal (b i))
    (h : Fin 8) (n kk : Fin 2048) : score c q k b msk h n kk ≠ ⊤ := by
  unfold score
  split_ifs
  · exact bot_ne_top
  · exact (rawScore_real hc hq hk hb h n kk).ne_top

/-- On an unmasked key the score is real, so it is not −∞. -/
theorem score_ne_bot {c : EReal} {q k : SHND.Idx → EReal} {b : SHNN.Idx → EReal} (msk : Fin 2048 → BitVec 1)
    (hc : IsReal c) (hq : ∀ i, IsReal (q i)) (hk : ∀ i, IsReal (k i)) (hb : ∀ i, IsReal (b i))
    (h : Fin 8) (n kk : Fin 2048) (hm : msk kk ≠ 1#1) : score c q k b msk h n kk ≠ ⊥ := by
  unfold score
  rw [if_neg hm]
  exact (rawScore_real hc hq hk hb h n kk).ne_bot

/-- Adding 0 on an unmasked key and −∞ on a masked one to the (real) unmasked score gives the score. -/
theorem score_eq_add {c : EReal} {q k : SHND.Idx → EReal} {b : SHNN.Idx → EReal} (msk : Fin 2048 → BitVec 1)
    (hc : IsReal c) (hq : ∀ i, IsReal (q i)) (hk : ∀ i, IsReal (k i)) (hb : ∀ i, IsReal (b i))
    (h : Fin 8) (n kk : Fin 2048) :
    ((∑ d : Fin 16, q (ix3 h n d) * k (ix3 h kk d)) * c + b (ix3 h n kk)) + (if msk kk = 1#1 then (⊥ : EReal) else 0)
      = score c q k b msk h n kk := by
  unfold score
  split_ifs
  · exact EReal.add_bot _
  · exact add_zero _

/-- The maximum of a row with a real entry and no +∞ is real. -/
theorem rowMax_real (S : Fin 2048 → EReal) (hS : ∀ k, S k ≠ ⊤) (hex : ∃ k, S k ≠ ⊥) :
    IsReal (max ⊥ ((Finset.univ : Finset (Fin 2048)).fold max ⊥ S)) := by
  rw [max_eq_right bot_le]
  refine isReal_of_ne (ne_of_lt ?_) ?_
  · exact (Finset.fold_max_lt _).mpr ⟨bot_lt_top, fun x _ => lt_top_iff_ne_top.mpr (hS x)⟩
  · obtain ⟨k, hk⟩ := hex
    intro h0
    have hle : S k ≤ (Finset.univ : Finset (Fin 2048)).fold max ⊥ S :=
      (Finset.le_fold_max _).mpr (Or.inr ⟨k, Finset.mem_univ k, le_rfl⟩)
    rw [h0] at hle
    exact hk (le_bot_iff.mp hle)

/-! ### The real weights -/

/-- The real weight of key `k` against the real point `μ`: e^(Sₖ − μ) on an unmasked key, 0 on a masked one. -/
private def wt (S : Fin 2048 → EReal) (μ : ℝ) (k : Fin 2048) : ℝ :=
  if S k = ⊥ then 0 else Real.exp ((S k).toReal - μ)

/-- The extended-real exponential of Sₖ − μ is the real weight. -/
private theorem exp_sub_coe {S : Fin 2048 → EReal} (hS : ∀ k, S k ≠ ⊤) (μ : ℝ) (k : Fin 2048) :
    Ideal.exp (S k - (μ : EReal)) = (wt S μ k : EReal) := by
  unfold wt
  by_cases h : S k = ⊥
  · rw [if_pos h, h, EReal.bot_sub, Ideal.exp_bot, EReal.coe_zero]
  · rw [if_neg h]
    conv_lhs => rw [← EReal.coe_toReal (hS k) h]
    rw [← EReal.coe_sub, Ideal.exp_coe]

/-- Moving the point from μ to μ' multiplies every weight by e^(μ − μ'). -/
private theorem wt_rescale (S : Fin 2048 → EReal) (μ μ' : ℝ) (k : Fin 2048) :
    Real.exp (μ - μ') * wt S μ k = wt S μ' k := by
  unfold wt
  split_ifs
  · exact mul_zero _
  · rw [← Real.exp_add]; congr 1; ring

private theorem wt_bot {S : Fin 2048 → EReal} (μ : ℝ) {k : Fin 2048} (h : S k = ⊥) : wt S μ k = 0 := if_pos h

private theorem wt_pos {S : Fin 2048 → EReal} (μ : ℝ) {k : Fin 2048} (h : S k ≠ ⊥) : 0 < wt S μ k := by
  unfold wt; rw [if_neg h]; exact Real.exp_pos _

private theorem wt_nonneg (S : Fin 2048 → EReal) (μ : ℝ) (k : Fin 2048) : 0 ≤ wt S μ k := by
  unfold wt; split_ifs
  · exact le_rfl
  · exact (Real.exp_pos _).le

/-! ### The maximum of a block -/

private theorem fold_ne_top {ι : Type} (s : Finset ι) (f : ι → EReal) (h : ∀ i, f i ≠ ⊤) : s.fold max ⊥ f ≠ ⊤ :=
  ne_of_lt ((Finset.fold_max_lt _).mpr ⟨bot_lt_top, fun x _ => lt_top_iff_ne_top.mpr (h x)⟩)

private theorem fold_eq_bot {ι : Type} (s : Finset ι) (f : ι → EReal) : s.fold max ⊥ f = ⊥ ↔ ∀ i ∈ s, f i = ⊥ := by
  rw [← le_bot_iff, Finset.fold_max_le]
  simp only [le_bot_iff, true_and]

/-- One step, with the new maximum named. -/
private theorem flashStep_eq (s v : Fin 256 → EReal) (st : EReal × EReal × EReal) (m' : EReal)
    (hm' : max st.1 ((Finset.univ : Finset (Fin 256)).fold max ⊥ s) = m') :
    flashStep s v st = (m', Ideal.exp (st.1 - m') * st.2.1 + ∑ kk : Fin 256, Ideal.exp (s kk - m'),
      Ideal.exp (st.1 - m') * st.2.2 + ∑ kk : Fin 256, Ideal.exp (s kk - m') * v kk) := by
  subst hm'; rfl

/-! ### The invariant -/

/-- The state after the keys of `T`: the empty state if all of them are masked, else a real maximum-so-far μ with the
    two sums of the weights against μ. -/
private def Inv (S V : Fin 2048 → EReal) (T : Finset (Fin 2048)) (st : EReal × EReal × EReal) : Prop :=
  ((∀ k ∈ T, S k = ⊥) ∧ st = (⊥, 0, 0)) ∨
  ∃ μ : ℝ, st = ((μ : EReal), ((∑ k ∈ T, wt S μ k : ℝ) : EReal), ((∑ k ∈ T, wt S μ k * (V k).toReal : ℝ) : EReal))

/-- Rescaling a state that satisfies the invariant to a real point μ' gives the two sums of the weights against μ'. -/
private theorem inv_rescale {S V : Fin 2048 → EReal} {T : Finset (Fin 2048)} {st : EReal × EReal × EReal}
    (h : Inv S V T st) (μ' : ℝ) :
    Ideal.exp (st.1 - (μ' : EReal)) * st.2.1 = ((∑ k ∈ T, wt S μ' k : ℝ) : EReal) ∧
    Ideal.exp (st.1 - (μ' : EReal)) * st.2.2 = ((∑ k ∈ T, wt S μ' k * (V k).toReal : ℝ) : EReal) := by
  rcases h with ⟨hbot, rfl⟩ | ⟨μ, rfl⟩
  · have h0 : ∀ k ∈ T, wt S μ' k = 0 := fun k hk => wt_bot μ' (hbot k hk)
    constructor
    · show _ * (0 : EReal) = _
      rw [mul_zero, Finset.sum_eq_zero h0, EReal.coe_zero]
    · show _ * (0 : EReal) = _
      rw [mul_zero, Finset.sum_eq_zero (fun k hk => by rw [h0 k hk, zero_mul]), EReal.coe_zero]
  · constructor
    · show Ideal.exp ((μ : EReal) - (μ' : EReal)) * ((∑ k ∈ T, wt S μ k : ℝ) : EReal) = _
      rw [← EReal.coe_sub, Ideal.exp_coe, ← EReal.coe_mul, Finset.mul_sum]
      exact congrArg _ (Finset.sum_congr rfl fun k _ => wt_rescale S μ μ' k)
    · show Ideal.exp ((μ : EReal) - (μ' : EReal)) * ((∑ k ∈ T, wt S μ k * (V k).toReal : ℝ) : EReal) = _
      rw [← EReal.coe_sub, Ideal.exp_coe, ← EReal.coe_mul, Finset.mul_sum]
      exact congrArg _ (Finset.sum_congr rfl fun k _ => by rw [← mul_assoc, wt_rescale S μ μ' k])

/-- One step keeps the invariant: the block's keys `e kk` are new, and join `T`. -/
private theorem step_inv {S V : Fin 2048 → EReal} (hS : ∀ k, S k ≠ ⊤) (hV : ∀ k, IsReal (V k))
    (T : Finset (Fin 2048)) (e : Fin 256 → Fin 2048) (he : Function.Injective e) (hdisj : ∀ kk, e kk ∉ T)
    (s v : Fin 256 → EReal) (hs : ∀ kk, s kk = S (e kk)) (hv : ∀ kk, v kk = V (e kk))
    (st : EReal × EReal × EReal) (h : Inv S V T st) :
    Inv S V (T ∪ Finset.univ.image e) (flashStep s v st) := by
  classical
  have hbm_top : (Finset.univ : Finset (Fin 256)).fold max ⊥ s ≠ ⊤ :=
    fold_ne_top _ _ fun kk => by rw [hs]; exact hS (e kk)
  have hm_top : st.1 ≠ ⊤ := by
    rcases h with ⟨_, rfl⟩ | ⟨μ, rfl⟩
    · exact bot_ne_top
    · exact EReal.coe_ne_top μ
  have hm'_top : max st.1 ((Finset.univ : Finset (Fin 256)).fold max ⊥ s) ≠ ⊤ := by
    rcases max_cases st.1 ((Finset.univ : Finset (Fin 256)).fold max ⊥ s) with ⟨h1, _⟩ | ⟨h1, _⟩
    · rw [h1]; exact hm_top
    · rw [h1]; exact hbm_top
  by_cases hm' : max st.1 ((Finset.univ : Finset (Fin 256)).fold max ⊥ s) = ⊥
  · -- no unmasked key so far, none in the block: the state stays empty
    have h1 : st.1 = ⊥ := le_bot_iff.mp ((le_max_left _ _).trans_eq hm')
    have h2 : (Finset.univ : Finset (Fin 256)).fold max ⊥ s = ⊥ := le_bot_iff.mp ((le_max_right _ _).trans_eq hm')
    have hblock : ∀ kk, S (e kk) = ⊥ := fun kk => by
      rw [← hs]; exact (fold_eq_bot _ _).mp h2 kk (Finset.mem_univ kk)
    rcases h with ⟨hbot, rfl⟩ | ⟨μ, rfl⟩
    · left
      refine ⟨?_, ?_⟩
      · intro k hk
        rcases Finset.mem_union.mp hk with hk | hk
        · exact hbot k hk
        · obtain ⟨kk, _, rfl⟩ := Finset.mem_image.mp hk
          exact hblock kk
      · have hz1 : ∑ kk : Fin 256, Ideal.exp (s kk - ⊥) = 0 :=
          Finset.sum_eq_zero fun kk _ => by rw [hs, hblock kk, EReal.bot_sub, Ideal.exp_bot]
        have hz2 : ∑ kk : Fin 256, Ideal.exp (s kk - ⊥) * v kk = 0 :=
          Finset.sum_eq_zero fun kk _ => by rw [hs, hblock kk, EReal.bot_sub, Ideal.exp_bot, zero_mul]
        rw [flashStep_eq _ _ _ _ hm', hz1, hz2]
        show ((⊥ : EReal), Ideal.exp (⊥ - ⊥) * (0 : EReal) + 0, Ideal.exp (⊥ - ⊥) * (0 : EReal) + 0) = (⊥, 0, 0)
        rw [mul_zero, add_zero]
    · exact absurd h1 (EReal.coe_ne_bot μ)
  · -- the new maximum is a real μ'
    obtain ⟨μ', hμ'⟩ : ∃ μ' : ℝ, max st.1 ((Finset.univ : Finset (Fin 256)).fold max ⊥ s) = (μ' : EReal) :=
      ⟨_, (EReal.coe_toReal hm'_top hm').symm⟩
    right
    refine ⟨μ', ?_⟩
    obtain ⟨hl, hacc⟩ := inv_rescale h μ'
    have hsum1 : ∑ kk : Fin 256, Ideal.exp (s kk - (μ' : EReal)) = ((∑ kk : Fin 256, wt S μ' (e kk) : ℝ) : EReal) := by
      rw [PlainMatmul.coe_sum]
      exact Finset.sum_congr rfl fun kk _ => by rw [hs, exp_sub_coe hS μ' (e kk)]
    have hsum2 : ∑ kk : Fin 256, Ideal.exp (s kk - (μ' : EReal)) * v kk
        = ((∑ kk : Fin 256, wt S μ' (e kk) * (V (e kk)).toReal : ℝ) : EReal) := by
      rw [PlainMatmul.coe_sum]
      refine Finset.sum_congr rfl fun kk _ => ?_
      rw [hs, hv, exp_sub_coe hS μ' (e kk), EReal.coe_mul, EReal.coe_toReal (hV _).ne_top (hV _).ne_bot]
    have hsplit : ∀ f : Fin 2048 → ℝ,
        ∑ k ∈ T ∪ Finset.univ.image e, f k = ∑ k ∈ T, f k + ∑ kk : Fin 256, f (e kk) := by
      intro f
      rw [Finset.sum_union, Finset.sum_image (fun a _ b _ hab => he hab)]
      rw [Finset.disjoint_left]
      intro k hk hk'
      obtain ⟨kk, _, rfl⟩ := Finset.mem_image.mp hk'
      exact hdisj kk hk
    rw [flashStep_eq _ _ _ _ hμ', hl, hacc, hsum1, hsum2, ← EReal.coe_add, ← EReal.coe_add,
      ← hsplit (fun k => wt S μ' k), ← hsplit (fun k => wt S μ' k * (V k).toReal)]

/-! ### The blocks of keys -/

/-- Key number 256 j + kk, as the blocks number the keys. -/
private def bkey (j : ℕ) (kk : Fin 256) : Fin 2048 := ⟨(256 * j + kk.val) % 2048, Nat.mod_lt _ (by norm_num)⟩

private theorem blk_eq (f : Fin 2048 → EReal) (j : ℕ) (kk : Fin 256) : blk f j kk = f (bkey j kk) := rfl

/-- The keys before number `n`. -/
private def keysBelow (n : ℕ) : Finset (Fin 2048) := Finset.univ.filter fun k => k.val < n

private theorem mem_keysBelow (n : ℕ) (k : Fin 2048) : k ∈ keysBelow n ↔ k.val < n := by
  simp only [keysBelow, Finset.mem_filter, Finset.mem_univ, true_and]

private theorem bkey_val {j : ℕ} (hj : j < 8) (kk : Fin 256) : (bkey j kk).val = 256 * j + kk.val := by
  show (256 * j + kk.val) % 2048 = 256 * j + kk.val
  have := kk.isLt
  omega

private theorem bkey_injective {j : ℕ} (hj : j < 8) : Function.Injective (bkey j) := by
  intro a b hab
  have h := congrArg Fin.val hab
  rw [bkey_val hj, bkey_val hj] at h
  exact Fin.ext (by omega)

private theorem bkey_not_mem {j : ℕ} (hj : j < 8) (kk : Fin 256) : bkey j kk ∉ keysBelow (256 * j) := by
  rw [mem_keysBelow, bkey_val hj]
  omega

/-- The keys before 256 (j+1) are those before 256 j and the block j. -/
private theorem keysBelow_succ {j : ℕ} (hj : j < 8) :
    keysBelow (256 * (j + 1)) = keysBelow (256 * j) ∪ Finset.univ.image (bkey j) := by
  classical
  ext k
  rw [Finset.mem_union, mem_keysBelow, mem_keysBelow, Finset.mem_image]
  constructor
  · intro h
    by_cases h' : k.val < 256 * j
    · exact Or.inl h'
    · refine Or.inr ⟨⟨k.val - 256 * j, by omega⟩, Finset.mem_univ _, Fin.ext ?_⟩
      rw [bkey_val hj]
      show 256 * j + (k.val - 256 * j) = k.val
      omega
  · rintro (h | ⟨kk, _, rfl⟩)
    · omega
    · rw [bkey_val hj]
      have := kk.isLt
      omega

/-- The invariant holds after every block. -/
private theorem flashState_inv {S V : Fin 2048 → EReal} (hS : ∀ k, S k ≠ ⊤) (hV : ∀ k, IsReal (V k)) :
    ∀ j, j < 8 → Inv S V (keysBelow (256 * (j + 1))) (flashState S V j)
  | 0, hj => by
    rw [keysBelow_succ hj]
    refine step_inv hS hV _ (bkey 0) (bkey_injective hj) (bkey_not_mem hj) _ _ (blk_eq S 0) (blk_eq V 0) _
      (Or.inl ⟨fun k hk => ?_, rfl⟩)
    rw [mem_keysBelow] at hk
    omega
  | j + 1, hj => by
    rw [keysBelow_succ hj]
    exact step_inv hS hV _ (bkey (j + 1)) (bkey_injective hj) (bkey_not_mem hj) _ _ (blk_eq S (j + 1))
      (blk_eq V (j + 1)) _ (flashState_inv hS hV j (by omega))

/-- The one-pass softmax of a row over eight blocks of 256 keys is the two-pass softmax against any real point. -/
theorem flash_attend (S V : Fin 2048 → EReal) (hS : ∀ k, S k ≠ ⊤) (hV : ∀ k, IsReal (V k)) (hex : ∃ k, S k ≠ ⊥)
    (M : EReal) (hM : IsReal M) :
    Ideal.div (flashState S V 7).2.2 (flashState S V 7).2.1 = attend S M V := by
  obtain ⟨M₀, rfl⟩ := hM
  obtain ⟨k₀, hk₀⟩ := hex
  have hinv := flashState_inv hS hV 7 (by norm_num)
  have huniv : keysBelow (256 * (7 + 1)) = Finset.univ := by
    ext k
    rw [mem_keysBelow]
    have := k.isLt
    simp only [Finset.mem_univ, iff_true]
    omega
  rw [huniv] at hinv
  rcases hinv with ⟨hbot, _⟩ | ⟨μ, hst⟩
  · exact absurd (hbot k₀ (Finset.mem_univ _)) hk₀
  · rw [hst]
    show Ideal.div ((∑ k, wt S μ k * (V k).toReal : ℝ) : EReal) ((∑ k, wt S μ k : ℝ) : EReal) = attend S (M₀ : EReal) V
    -- both normalisers are positive: the unmasked key k₀ has a positive weight
    have hLpos : 0 < ∑ k, wt S μ k :=
      Finset.sum_pos' (fun k _ => wt_nonneg S μ k) ⟨k₀, Finset.mem_univ _, wt_pos μ hk₀⟩
    have hL₀pos : 0 < ∑ k, wt S M₀ k :=
      Finset.sum_pos' (fun k _ => wt_nonneg S M₀ k) ⟨k₀, Finset.mem_univ _, wt_pos M₀ hk₀⟩
    have hden : (0 : EReal) + ∑ k' : Fin 2048, Ideal.exp (S k' - (M₀ : EReal)) = ((∑ k', wt S M₀ k' : ℝ) : EReal) := by
      rw [zero_add, PlainMatmul.coe_sum]
      exact Finset.sum_congr rfl fun k _ => exp_sub_coe hS M₀ k
    have hterm : ∀ kk : Fin 2048,
        Ideal.div (Ideal.exp (S kk - (M₀ : EReal))) ((∑ k', wt S M₀ k' : ℝ) : EReal) * V kk
          = ((wt S M₀ kk * (1 / ∑ k', wt S M₀ k') * (V kk).toReal : ℝ) : EReal) := by
      intro kk
      rw [Ideal.div_coe hL₀pos.ne', exp_sub_coe hS M₀ kk, EReal.coe_mul, EReal.coe_mul,
        EReal.coe_toReal (hV kk).ne_top (hV kk).ne_bot]
    unfold attend
    rw [Ideal.div_coe hLpos.ne', hden, Finset.sum_congr rfl fun kk _ => hterm kk, ← PlainMatmul.coe_sum, ← EReal.coe_mul]
    congr 1
    -- in the reals: the weights against μ are those against M₀ times e^(M₀ − μ), which cancels
    have hw : ∀ k, wt S μ k = Real.exp (M₀ - μ) * wt S M₀ k := fun k => (wt_rescale S M₀ μ k).symm
    have hA : ∑ k, wt S μ k * (V k).toReal = Real.exp (M₀ - μ) * ∑ k, wt S M₀ k * (V k).toReal := by
      rw [Finset.mul_sum]
      exact Finset.sum_congr rfl fun k _ => by rw [hw k, mul_assoc]
    have hL : ∑ k, wt S μ k = Real.exp (M₀ - μ) * ∑ k, wt S M₀ k := by
      rw [Finset.mul_sum]
      exact Finset.sum_congr rfl fun k _ => hw k
    have hR : ∑ k, wt S M₀ k * (1 / ∑ k', wt S M₀ k') * (V k).toReal
        = (∑ k, wt S M₀ k * (V k).toReal) * (1 / ∑ k', wt S M₀ k') := by
      rw [Finset.sum_mul]
      exact Finset.sum_congr rfl fun k _ => by ring
    rw [hA, hL, hR]
    have hc : Real.exp (M₀ - μ) ≠ 0 := (Real.exp_pos _).ne'
    have hL₀ : ∑ k, wt S M₀ k ≠ 0 := hL₀pos.ne'
    field_simp

end Cert.Attn

end
-- ==== Proof.RefStages.lean ====
/-
  The reference's attention stage read at an index.

  The reference forms the scores S = (q·kᵀ)·¼ + bias with masked keys at −∞, takes each row's maximum M (from −∞),
  exponentiates S − M, divides by the row sum and multiplies into the values.  Read entry by entry this is
  `attend (score …) M v`: the projected queries, keys and values and the transposed bias are kept as the reference's
  own stages, not opened.  Those stages are real wherever the inputs are: each is a finite sum of products of input
  entries plus an input entry, moved by transpositions and reshapes.
-/
import proofs.«414598_j56530359550887_3_alg».proof.Proof.Gen.ReferenceIdeal.Read
import proofs.«414598_j56530359550887_3_alg».proof.Proof.AttnSpec
import proofs.«414598_j56530359550887_3_alg».proof.Proof.AttnMath

noncomputable section

namespace Cert.Attn

open Idealize.ShloMosaic Idealize.ShloMosaic.ValueIdx Cert.ReferenceIdeal

/-- The scale 2⁻² both programs multiply the inner products by, as the extended real its word denotes. -/
abbrev quarter : EReal := Ideal.ofBits .f32 0x3E800000#32

theorem quarter_real : IsReal quarter := by
  unfold IsReal
  simp only [Ideal.ofBits, Ideal.ieee]
  simp
  exact ⟨_, (EReal.coe_mul _ _).symm⟩

/-- The key-padding mask as a function of the key. -/
abbrev keyMask (x2 : IVec S2048 1) : Fin 2048 → BitVec 1 := fun kk => x2 (ix1 kk)

/-- The projected queries are real where the activations, the weight and the bias are. -/
theorem q_real (x0 : FVec Ideal S2048x128 .f32) (x3 : FVec Ideal S128x128 .f32) (x4 : FVec Ideal S128 .f32)
    (h0 : ∀ i, IsReal (x0 i)) (h3 : ∀ i, IsReal (x3 i)) (h4 : ∀ i, IsReal (x4 i)) :
    ∀ i, IsReal (Read.val_main_v6 (F := Ideal) x0 x3 x4 i) := by
  intro i
  rw [Read.val_main_v6_apply, Read.val_main_v5_apply, Read.val_main_v4_apply, Read.val_main_v1_apply,
    Read.val_main_v3_apply, Read.val_main_v2_apply, Ideal.addf_def]
  refine IsReal.add (isReal_sum _ _ fun k _ => IsReal.mul (h0 _) ?_) (h4 _)
  rw [Read.val_main_v0_apply]
  exact h3 _

/-- The projected keys likewise. -/
theorem k_real (x0 : FVec Ideal S2048x128 .f32) (x5 : FVec Ideal S128x128 .f32) (x6 : FVec Ideal S128 .f32)
    (h0 : ∀ i, IsReal (x0 i)) (h5 : ∀ i, IsReal (x5 i)) (h6 : ∀ i, IsReal (x6 i)) :
    ∀ i, IsReal (Read.val_main_v13 (F := Ideal) x0 x5 x6 i) := by
  intro i
  rw [Read.val_main_v13_apply, Read.val_main_v12_apply, Read.val_main_v11_apply, Read.val_main_v8_apply,
    Read.val_main_v10_apply, Read.val_main_v9_apply, Ideal.addf_def]
  refine IsReal.add (isReal_sum _ _ fun k _ => IsReal.mul (h0 _) ?_) (h6 _)
  rw [Read.val_main_v7_apply]
  exact h5 _

/-- The projected values likewise. -/
theorem v_real (x0 : FVec Ideal S2048x128 .f32) (x7 : FVec Ideal S128x128 .f32) (x8 : FVec Ideal S128 .f32)
    (h0 : ∀ i, IsReal (x0 i)) (h7 : ∀ i, IsReal (x7 i)) (h8 : ∀ i, IsReal (x8 i)) :
    ∀ i, IsReal (Read.val_main_v20 (F := Ideal) x0 x7 x8 i) := by
  intro i
  rw [Read.val_main_v20_apply, Read.val_main_v19_apply, Read.val_main_v18_apply, Read.val_main_v15_apply,
    Read.val_main_v17_apply, Read.val_main_v16_apply, Ideal.addf_def]
  refine IsReal.add (isReal_sum _ _ fun k _ => IsReal.mul (h0 _) ?_) (h8 _)
  rw [Read.val_main_v14_apply]
  exact h7 _

/-- The bias with the head axis moved to the front is real where the bias is. -/
theorem bias_real (x1 : FVec Ideal S2048x2048x8 .f32) (h1 : ∀ i, IsReal (x1 i)) :
    ∀ i, IsReal (Read.val_main_v24 (F := Ideal) x1 i) := by
  intro i
  rw [Read.val_main_v24_apply]
  exact h1 _

/-- The word with sign 1, exponent all ones and significand 0 denotes −∞. -/
theorem ofBits_negInf : Ideal.ofBits .f32 0xFF800000#32 = (⊥ : EReal) := by simp [Ideal.ofBits, Ideal.ieee]

/-- The reference's masked scores at (head h, row n, key kk): the inner product of the query and key 16-vectors times ¼
    plus the bias entry, and −∞ on a masked key. -/
theorem ref_score_apply (x0 : FVec Ideal S2048x128 .f32) (x1 : FVec Ideal S2048x2048x8 .f32) (x2 : IVec S2048 1)
    (x3 : FVec Ideal S128x128 .f32) (x4 : FVec Ideal S128 .f32) (x5 : FVec Ideal S128x128 .f32) (x6 : FVec Ideal S128 .f32) (h : Fin 8) (n kk : Fin 2048) :
    Read.val_main_v27 (F := Ideal) x0 x1 x2 x3 x4 x5 x6 (ix3 h n kk)
      = score quarter (Read.val_main_v6 (F := Ideal) x0 x3 x4) (Read.val_main_v13 (F := Ideal) x0 x5 x6)
          (Read.val_main_v24 (F := Ideal) x1) (keyMask x2) h n kk := by
  have e1 : ∀ dd : Fin 16, Read.lidx_main_v21 (ix3 h n kk) dd = ix3 h n dd := fun dd => funext fun a => Fin.ext (by
    match a with | ⟨0, _⟩ => rfl | ⟨1, _⟩ => rfl | ⟨2, _⟩ => rfl)
  have e2 : ∀ dd : Fin 16, Read.ridx_main_v21 (ix3 h n kk) dd = ix3 h kk dd := fun dd => funext fun a => Fin.ext (by
    match a with | ⟨0, _⟩ => rfl | ⟨1, _⟩ => rfl | ⟨2, _⟩ => rfl)
  have e3 : Read.idx_main_v26 (Read.idx_main_call0_v1 (ix3 h n kk)) = ix1 kk := funext fun a => Fin.ext (by
    match a with | ⟨0, _⟩ => rfl)
  rw [Read.val_main_v27_apply, Read.val_main_call0_v1_apply, Read.val_main_v26_apply, Read.val_main_call0_v2_apply,
    Read.val_main_call0_v0_apply, Read.val_main_cst_0_apply, Read.val_main_v25_apply, Read.val_main_v23_apply,
    Read.val_main_v22_apply, Read.val_main_cst_apply, Read.val_main_v21_apply]
  simp only [e1, e2, e3, Ideal.ofBits_def, Ideal.addf_def, Ideal.mulf_def, ofBits_negInf]
  rfl

/-- The reference's row maximum at (head h, row n): the maximum of −∞ and the fold of max, from −∞, of the row's scores
    over the 2048 keys. -/
theorem ref_rowMax_apply (x0 : FVec Ideal S2048x128 .f32) (x1 : FVec Ideal S2048x2048x8 .f32) (x2 : IVec S2048 1)
    (x3 : FVec Ideal S128x128 .f32) (x4 : FVec Ideal S128 .f32) (x5 : FVec Ideal S128x128 .f32) (x6 : FVec Ideal S128 .f32) (h : Fin 8) (n : Fin 2048) :
    Read.val_main_v30 (F := Ideal) x0 x1 x2 x3 x4 x5 x6 (ix2 h n)
      = max ⊥ ((Finset.univ : Finset (Fin 2048)).fold max ⊥
          (score quarter (Read.val_main_v6 (F := Ideal) x0 x3 x4) (Read.val_main_v13 (F := Ideal) x0 x5 x6)
          (Read.val_main_v24 (F := Ideal) x1) (keyMask x2) h n)) := by
  have hR : S8x2048x2048.Reduces [2] S8x2048 := by decide
  have hl : ∀ kk : Fin 2048, hR.lift (ix2 h n) kk = ix3 h n kk := fun kk => funext fun c => Fin.ext (by
    match c with | ⟨0, _⟩ => rfl | ⟨1, _⟩ => rfl | ⟨2, _⟩ => rfl)
  have hf : (fun kk : Fin 2048 => Read.val_main_v27 (F := Ideal) x0 x1 x2 x3 x4 x5 x6 (hR.lift (ix2 h n) kk))
      = score quarter (Read.val_main_v6 (F := Ideal) x0 x3 x4) (Read.val_main_v13 (F := Ideal) x0 x5 x6)
          (Read.val_main_v24 (F := Ideal) x1) (keyMask x2) h n :=
    funext fun kk => (congrArg (Read.val_main_v27 (F := Ideal) x0 x1 x2 x3 x4 x5 x6) (hl kk)).trans
      (ref_score_apply x0 x1 x2 x3 x4 x5 x6 h n kk)
  rw [Read.val_main_v30_apply, Read.val_main_v29_apply, Read.val_main_cst_2_apply]
  unfold Read.val_main_v28
  rw [Host.reduce_eq_fold_single _ _ _ _ hR, Read.val_main_cst_1_apply]
  show max (Ideal.ofBits .f32 0xFF800000#32) ((Finset.univ : Finset (Fin 2048)).fold max (Ideal.ofBits .f32 0xFF800000#32)
    (fun kk : Fin 2048 => Read.val_main_v27 (F := Ideal) x0 x1 x2 x3 x4 x5 x6 (hR.lift (ix2 h n) kk))) = _
  rw [ofBits_negInf, hf]

/-- The reference's exponentials at (h, n, kk): e to the score minus the row maximum. -/
theorem ref_exp_apply (x0 : FVec Ideal S2048x128 .f32) (x1 : FVec Ideal S2048x2048x8 .f32) (x2 : IVec S2048 1)
    (x3 : FVec Ideal S128x128 .f32) (x4 : FVec Ideal S128 .f32) (x5 : FVec Ideal S128x128 .f32) (x6 : FVec Ideal S128 .f32) (h : Fin 8) (n kk : Fin 2048) :
    Read.val_main_v34 (F := Ideal) x0 x1 x2 x3 x4 x5 x6 (ix3 h n kk)
      = Ideal.exp (score quarter (Read.val_main_v6 (F := Ideal) x0 x3 x4) (Read.val_main_v13 (F := Ideal) x0 x5 x6)
          (Read.val_main_v24 (F := Ideal) x1) (keyMask x2) h n kk
          - (max ⊥ ((Finset.univ : Finset (Fin 2048)).fold max ⊥
            (score quarter (Read.val_main_v6 (F := Ideal) x0 x3 x4) (Read.val_main_v13 (F := Ideal) x0 x5 x6)
          (Read.val_main_v24 (F := Ideal) x1) (keyMask x2) h n)))) := by
  have e : Read.idx_main_v31 (Read.idx_main_v32 (ix3 h n kk)) = ix2 h n := funext fun a => Fin.ext (by
    match a with | ⟨0, _⟩ => rfl | ⟨1, _⟩ => rfl)
  rw [Read.val_main_v34_apply, Read.val_main_v33_apply, Read.val_main_v32_apply, Read.val_main_v31_apply, e,
    ref_rowMax_apply, ref_score_apply, Ideal.hostUnary_exp_def, Ideal.subf_def]

/-- The reference's normaliser at (h, n, ·): 0 plus the sum of the row's exponentials over the 2048 keys. -/
theorem ref_norm_apply (x0 : FVec Ideal S2048x128 .f32) (x1 : FVec Ideal S2048x2048x8 .f32) (x2 : IVec S2048 1)
    (x3 : FVec Ideal S128x128 .f32) (x4 : FVec Ideal S128 .f32) (x5 : FVec Ideal S128x128 .f32) (x6 : FVec Ideal S128 .f32) (h : Fin 8) (n kk : Fin 2048) :
    Read.val_main_v37 (F := Ideal) x0 x1 x2 x3 x4 x5 x6 (ix3 h n kk)
      = 0 + ∑ k' : Fin 2048, Ideal.exp (score quarter (Read.val_main_v6 (F := Ideal) x0 x3 x4) (Read.val_main_v13 (F := Ideal) x0 x5 x6)
          (Read.val_main_v24 (F := Ideal) x1) (keyMask x2) h n k'
          - (max ⊥ ((Finset.univ : Finset (Fin 2048)).fold max ⊥
            (score quarter (Read.val_main_v6 (F := Ideal) x0 x3 x4) (Read.val_main_v13 (F := Ideal) x0 x5 x6)
          (Read.val_main_v24 (F := Ideal) x1) (keyMask x2) h n)))) := by
  have e : Read.idx_main_v36 (Read.idx_main_v37 (ix3 h n kk)) = ix2 h n := funext fun a => Fin.ext (by
    match a with | ⟨0, _⟩ => rfl | ⟨1, _⟩ => rfl)
  have e2 : ∀ k' : Fin 2048, Read.idx_main_v35 (ix2 h n) k' = ix3 h n k' := fun k' => funext fun a => Fin.ext (by
    match a with | ⟨0, _⟩ => rfl | ⟨1, _⟩ => rfl | ⟨2, _⟩ => rfl)
  rw [Read.val_main_v37_apply, Read.val_main_v36_apply, e, Read.val_main_v35_apply, Read.val_main_cst_3_apply,
    Ideal.ofBits_def, Ideal.ofBits_zero_f32]
  simp only [e2, ref_exp_apply]

/-- The reference's attended values at (head h, row n, coordinate d). -/
theorem ref_attn_apply (x0 : FVec Ideal S2048x128 .f32) (x1 : FVec Ideal S2048x2048x8 .f32) (x2 : IVec S2048 1)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (h : Fin 8) (n : Fin 2048) (d : Fin 16) :
    Read.val_main_v39 (F := Ideal) x0 x1 x2 x3 x4 x5 x6 x7 x8 (ix3 h n d)
      = attend (score quarter (Read.val_main_v6 (F := Ideal) x0 x3 x4) (Read.val_main_v13 (F := Ideal) x0 x5 x6)
                  (Read.val_main_v24 (F := Ideal) x1) (keyMask x2) h n)
          (max ⊥ ((Finset.univ : Finset (Fin 2048)).fold max ⊥
            (score quarter (Read.val_main_v6 (F := Ideal) x0 x3 x4) (Read.val_main_v13 (F := Ideal) x0 x5 x6)
                  (Read.val_main_v24 (F := Ideal) x1) (keyMask x2) h n)))
          (fun kk => Read.val_main_v20 (F := Ideal) x0 x7 x8 (ix3 h kk d)) := by
  have el : ∀ k : Fin 2048, Read.lidx_main_v39 (ix3 h n d) k = ix3 h n k := fun k => funext fun a => Fin.ext (by
    match a with | ⟨0, _⟩ => rfl | ⟨1, _⟩ => rfl | ⟨2, _⟩ => rfl)
  have er : ∀ k : Fin 2048, Read.ridx_main_v39 (ix3 h n d) k = ix3 h k d := fun k => funext fun a => Fin.ext (by
    match a with | ⟨0, _⟩ => rfl | ⟨1, _⟩ => rfl | ⟨2, _⟩ => rfl)
  rw [Read.val_main_v39_apply]
  unfold attend
  refine Finset.sum_congr rfl fun k _ => ?_
  rw [el, er, Read.val_main_v38_apply, ref_exp_apply, ref_norm_apply, Ideal.hostDivf_def]

end Cert.Attn

end
-- ==== Proof.KernelValue.lean ====
/-
  The kernel program's result.

  Under the precondition the inputs are real and some key is unmasked.  Then every score is a real or −∞ (never +∞), a
  row has a real score, and the projected values are real, so the one-pass softmax each row of the region computes is
  the two-pass softmax against the reference's own row maximum: the region's output array is the reference's attended
  values, every entry being written back by the last point of its query block.  The host operations after the region
  are the reference's.
-/
import proofs.«414598_j56530359550887_3_alg».proof.Proof.KernelGrid
import proofs.«414598_j56530359550887_3_alg».proof.Proof.HostSame
import proofs.«414598_j56530359550887_3_alg».proof.Proof.RefStages
import proofs.«414598_j56530359550887_3_alg».proof.Proof.AttnMath

set_option maxRecDepth 16384

noncomputable section

namespace Cert.Attn

open Idealize.ShloMosaic Idealize.ShloMosaic.TcCoe Idealize.ShloMosaic.ValueIdx Idealize.SL.Sem
open Cert.KernelIdeal Cert.KernelIdeal.Gen Cert.Attn.Kern

variable (m : (ℓ : Loc nD τ sig) → Buf (Elt Ideal) ℓ) (ρ : Dev nD → PrngReg)

/-- What the precondition gives on core c's inputs. -/
structure InputsOk (c : Dev nD) : Prop where
  r0 : ∀ i, IsReal ((m ((c : Thread nD τ).loc main_arg0)) i)
  r1 : ∀ i, IsReal ((m ((c : Thread nD τ).loc main_arg1)) i)
  r3 : ∀ i, IsReal ((m ((c : Thread nD τ).loc main_arg3)) i)
  r4 : ∀ i, IsReal ((m ((c : Thread nD τ).loc main_arg4)) i)
  r5 : ∀ i, IsReal ((m ((c : Thread nD τ).loc main_arg5)) i)
  r6 : ∀ i, IsReal ((m ((c : Thread nD τ).loc main_arg6)) i)
  r7 : ∀ i, IsReal ((m ((c : Thread nD τ).loc main_arg7)) i)
  r8 : ∀ i, IsReal ((m ((c : Thread nD τ).loc main_arg8)) i)
  kept : ∃ k : Fin 2048, (m ((c : Thread nD τ).loc main_arg2)) (ix1 k) ≠ 1#1

/-- The reference's attended values, of the kernel program's inputs. -/
def attended (c : Dev nD) : S8x2048x16.Idx → EReal :=
  Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The score the kernel forms is the score: the additive mask is 0 or −∞ on a real number. -/
theorem kscore_eq (c : Dev nD) (ok : InputsOk m c) (h : Fin 8) (n : Fin 2048) :
    kscore m c h n
      = score quarter (Cert.ReferenceIdeal.Read.val_main_v6 (F := Ideal) (m ((c : Thread nD τ).loc main_arg0)) (m ((c : Thread nD τ).loc main_arg3)) (m ((c : Thread nD τ).loc main_arg4)))
          (Cert.ReferenceIdeal.Read.val_main_v13 (F := Ideal) (m ((c : Thread nD τ).loc main_arg0)) (m ((c : Thread nD τ).loc main_arg5)) (m ((c : Thread nD τ).loc main_arg6)))
          (Cert.ReferenceIdeal.Read.val_main_v24 (F := Ideal) (m ((c : Thread nD τ).loc main_arg1))) (keyMask (m ((c : Thread nD τ).loc main_arg2))) h n := by
  funext kk
  unfold kscore
  rw [show qArr m c = _ from V_q m c, show kArr m c = _ from V_k m c, show bArr m c = _ from V_b m c,
    show mArr m c = _ from V_mask m c, maskAdd_apply]
  exact score_eq_add (keyMask (m ((c : Thread nD τ).loc main_arg2))) quarter_real (q_real _ _ _ ok.r0 ok.r3 ok.r4) (k_real _ _ _ ok.r0 ok.r5 ok.r6)
    (bias_real _ ok.r1) h n kk

/-- What a writing-back point writes back is its block of the reference's attended values. -/
theorem flushed_eq (c : Dev nD) (ok : InputsOk m c) (t : Fin cfg0.N) (hf : (cfg0.win 5).flush t = true) :
    (dats m 0 c).flushed 5 t = ((cfg0.win 5).blk t).view.read (Elt Ideal) (attended m c) := by
  show (cfg0.win 5).cut (grid0.coords t) ((dats m 0 c).after 5 t) = _
  rw [after0_5]
  funext y
  obtain ⟨h, r, d, rfl⟩ : ∃ (h : Fin 8) (r : Fin 256) (d : Fin 16), y = ix3 h r d := ⟨y 0, y 1, y 2, eq_ix3 y⟩
  show (outsAt0 m c t.val t.isLt).1 (ix3 h r d) = attended m c (((cfg0.win 5).blk t).view.emb (ix3 h r d))
  rw [out_emb, out_at m c t ((flush0_5 t).mp hf) h r d, kscore_eq m c ok, show vArr m c = _ from V_v m c]
  unfold attended
  rw [ref_attn_apply]
  obtain ⟨k0, hk0⟩ := ok.kept
  have hq := q_real _ _ _ ok.r0 ok.r3 ok.r4
  have hk := k_real _ _ _ ok.r0 ok.r5 ok.r6
  have hb := bias_real _ ok.r1
  have hS := fun kk => score_ne_top (keyMask (m ((c : Thread nD τ).loc main_arg2))) quarter_real hq hk hb h (rowOf t r) kk
  have hex : ∃ kk, score quarter _ _ _ (keyMask (m ((c : Thread nD τ).loc main_arg2))) h (rowOf t r) kk ≠ ⊥ :=
    ⟨k0, score_ne_bot (keyMask (m ((c : Thread nD τ).loc main_arg2))) quarter_real hq hk hb h (rowOf t r) k0 hk0⟩
  exact flash_attend _ _ hS (fun kk => v_real _ _ _ ok.r0 ok.r7 ok.r8 _) hex _ (rowMax_real _ hS hex)

/-- The region's output array after the run is the reference's attended values. -/
theorem final_out (c : Dev nD) (ok : InputsOk m c) : (dats m 0 c).arrAt 5 cfg0.N = attended m c :=
  (dats m 0 c).arrAt_eq_of_cover 5 (attended m c) (fun t hf => flushed_eq m c ok t hf) (fun i => out_cover i)

/-- The kernel program's run: its result is the tail of the reference's attended values, its inputs unchanged. -/
theorem kernel_run (ok : ∀ c, InputsOk m c) :
    θ_run defs (onTc (τ := τ) (main (F := Ideal))) ⟨m, fun _ => 0, ρ⟩ (fun r => ∀ c : Dev nD,
      r.2.mem ((c.tc : Thread nD τ).loc main_v35)
        = tailR (attended m c) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v35 (Pipeline.mem_restRefs_of main_v35 (by decide) (by decide))).trans
        ((kernel_tail m c).trans (by rw [final_out m c (ok c)])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.Attn

end
-- ==== Proof.lean ====
/-
  An attention kernel that streams over key blocks, against multi-head attention written with a whole-row softmax.

  Both programs project the activations into queries, keys and values (eight heads of dimension 16), form the scores
  S = (q·kᵀ)·¼ + bias with masked keys at −∞, take the softmax over the keys, multiply into the values, and apply the
  output projection.  The reference computes each row's softmax in two passes: the row maximum M, then
  e^(S − M) / Σ e^(S − M).  The kernel never holds a whole row: for each block of 256 queries it visits the eight blocks of
  256 keys in turn, carrying per row a running maximum m, a running normaliser l and a running weighted sum acc, rescaling
  both sums by e^(m − m') whenever the maximum rises, and divides acc by l after the last key block.

  Over the extended reals the two agree wherever some key is unmasked and the inputs are real (the added precondition;
  with every key masked the reference's own softmax is 0/0).  Then every score is a real or −∞, each row has a real score,
  so its maximum is real, the normaliser is positive, and the one-pass state after the last block is
  (μ, Σ e^(Sₖ − μ), Σ e^(Sₖ − μ)·vₖ) for a real μ; acc / l does not depend on μ, and equals the reference's
  Σ (e^(Sₖ − M) / Σ e^(Sⱼ − M))·vₖ.  The kernel's additive mask (0 or −∞ added to a real score) is the reference's selection
  of −∞ on masked keys.  The projections before the attention and the output projection after it are the same host
  operations in both programs; a change of float format is the identity on the extended reals.
  The idealization rewrote nothing, so its soundness conjunct is trivial.
-/
import proofs.«414598_j56530359550887_3_alg».proof.Defs
import proofs.«414598_j56530359550887_3_alg».proof.Proof.Gen.Kernel
import proofs.«414598_j56530359550887_3_alg».proof.Proof.Gen.Kernel.Skeleton
import proofs.«414598_j56530359550887_3_alg».proof.Proof.Gen.Kernel.Launch
import proofs.«414598_j56530359550887_3_alg».proof.Proof.Gen.Kernel.Points
import proofs.«414598_j56530359550887_3_alg».proof.Proof.Gen.Kernel.Frame
import proofs.«414598_j56530359550887_3_alg».proof.Proof.Gen.KernelIdeal
import proofs.«414598_j56530359550887_3_alg».proof.Proof.Gen.KernelIdeal.Skeleton
import proofs.«414598_j56530359550887_3_alg».proof.Proof.Gen.KernelIdeal.Launch
import proofs.«414598_j56530359550887_3_alg».proof.Proof.Gen.KernelIdeal.Points
import proofs.«414598_j56530359550887_3_alg».proof.Proof.Gen.KernelIdeal.Frame
import proofs.«414598_j56530359550887_3_alg».proof.Proof.Gen.ReferenceIdeal
import proofs.«414598_j56530359550887_3_alg».proof.Proof.Gen.ReferenceIdeal.Run
import proofs.«414598_j56530359550887_3_alg».proof.Proof.Gen.ReferenceIdeal.Read
import proofs.«414598_j56530359550887_3_alg».proof.Proof.Gen.Pre_finite_inputs
import proofs.«414598_j56530359550887_3_alg».proof.Proof.PreFacts
import proofs.«414598_j56530359550887_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The precondition, on the kernel program's inputs: real entries and an unmasked key. -/
theorem inputs_ok (m : (ℓ : Loc Cert.KernelIdeal.nD Cert.KernelIdeal.τ Cert.KernelIdeal.sig) → Buf (Elt Ideal) ℓ)
    (hpre : Cert.Pre_KernelIdeal m) (c : Dev Cert.KernelIdeal.nD) : Cert.Attn.InputsOk m c := by
  obtain ⟨r0, r1, r3, r4, r5, r6, r7, r8, -, -, hk⟩ := Cert.Attn.pre_decode _ _ _ _ _ _ _ _ _ _ _ (hpre c)
  exact ⟨r0, r1, r3, r4, r5, r6, r7, r8, hk⟩

/-- From inputs that agree, both programs end with the output projection of the same attended values. -/
theorem algebraic : Cert.algebraic_KernelIdeal_ReferenceIdeal := by
  intro m ρ m' ρ' hpre hagree
  refine ⟨fun c => Cert.Attn.tailR (Cert.Attn.attended m c)
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.Attn.kernel_run m ρ (inputs_ok m hpre), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v46_eq, Cert.Attn.ref_result_eq, e0, e1, e2, e3, e4, e5, e6, e7, e8, e9, e10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
